-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S10x256 : Shape := ⟨2, ![10, 256]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S10x256 : S_.BroadcastsInDim S10x256 (![] : Fin 0 → Fin S10x256.rank)
  reducesTo_S10x256_S_d0_1 : S10x256.ReducesTo [0, 1] S_

variable [Facts]

def fn {F : FTy → Type} [FloatOps F] (main_arg0 : FVec F S16x256x128x128 .f32) (main_arg1 : FVec F S10x256 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S10x256 .f32 := Host.absf main_arg1
  let main_cst_0 : FVec F S_ .f32 := constant S_ .f32 0x7F800000#32
  let main_v5 : FVec F S10x256 .f32 := broadcastInDim S10x256 ![] bcast_S_S10x256 main_cst_0
  let main_v6 : IVec S10x256 1 := cmpf .olt main_v4 main_v5
  let main_c_1 : IVec S_ 1 := constantI S_ 1 1#1
  let main_v7 : IVec S_ 1 := (fun x v => Host.reduce IntOp.andi x v reducesTo_S10x256_S_d0_1 h_S_) main_v6 main_c_1
  let main_v8 : IVec S_ 1 := andi main_v3 main_v7
  main_v8
-- ==== Kernel.lean ====
abbrev S16x256x128x128 : Shape := ⟨4, ![16, 256, 128, 128]⟩
abbrev S10x256 : Shape := ⟨2, ![10, 256]⟩
abbrev S16x256 : Shape := ⟨2, ![16, 256]⟩
abbrev S16x128x16x128 : Shape := ⟨4, ![16, 128, 16, 128]⟩
abbrev S16x128 : Shape := ⟨2, ![16, 128]⟩
abbrev S16x128x16 : Shape := ⟨3, ![16, 128, 16]⟩
abbrev S16x10 : Shape := ⟨2, ![16, 10]⟩
abbrev S16x2x5 : Shape := ⟨3, ![16, 2, 5]⟩
abbrev S_ : Shape := ⟨0, ![]⟩
abbrev S1x16x1x2x1x5 : Shape := ⟨6, ![1, 16, 1, 2, 1, 5]⟩
abbrev S1x16x128x2x1x5 : Shape := ⟨6, ![1, 16, 128, 2, 1, 5]⟩
abbrev S16x256x5 : Shape := ⟨3, ![16, 256, 5]⟩
abbrev S16x256x128x1 : Shape := ⟨4, ![16, 256, 128, 1]⟩
abbrev S16x256x128x4 : Shape := ⟨4, ![16, 256, 128, 4]⟩
abbrev S16x256x128x132 : Shape := ⟨4, ![16, 256, 128, 132]⟩
abbrev S16x256x128x136 : Shape := ⟨4, ![16, 256, 128, 136]⟩
abbrev S1x64x128x136 : Shape := ⟨4, ![1, 64, 128, 136]⟩
abbrev S1x64x5 : Shape := ⟨3, ![1, 64, 5]⟩
abbrev S1x64x128x128 : Shape := ⟨4, ![1, 64, 128, 128]⟩
abbrev S1x64x1 : Shape := ⟨3, ![1, 64, 1]⟩
abbrev S64 : Shape := ⟨1, ![64]⟩
abbrev S64x1x1 : Shape := ⟨3, ![64, 1, 1]⟩
abbrev S64x128x128 : Shape := ⟨3, ![64, 128, 128]⟩

abbrev nBuf : Space → Nat
  | .hbm => 26
  | .vmem => 10
  | .smem => 0
  | _ => 0

abbrev bufTy : (tb : Table) → Fin (tcTables nBuf tb) → BufTy
  | .hbm, ⟨0, _⟩ => ⟨S16x256x128x128, .f32⟩
  | .hbm, ⟨1, _⟩ => ⟨S10x256, .f32⟩
  | .hbm, ⟨2, _⟩ => ⟨S16x256, .f32⟩
  | .hbm, ⟨3, _⟩ => ⟨S16x10, .f32⟩
  | .hbm, ⟨4, _⟩ => ⟨S16x2x5, .f32⟩
  | .hbm, ⟨5, _⟩ => ⟨S16x2x5, .f32⟩
  | .hbm, ⟨6, _⟩ => ⟨S16x2x5, .f32⟩
  | .hbm, ⟨7, _⟩ => ⟨S_, .f32⟩
  | .hbm, ⟨8, _⟩ => ⟨S16x2x5, .f32⟩
  | .hbm, ⟨9, _⟩ => ⟨S16x2x5, .f32⟩
  | .hbm, ⟨10, _⟩ => ⟨S_, .f32⟩
  | .hbm, ⟨11, _⟩ => ⟨S16x2x5, .f32⟩
  | .hbm, ⟨12, _⟩ => ⟨S16x2x5, .f32⟩
  | .hbm, ⟨13, _⟩ => ⟨S1x16x1x2x1x5, .f32⟩
  | .hbm, ⟨14, _⟩ => ⟨S1x16x128x2x1x5, .f32⟩
  | .hbm, ⟨15, _⟩ => ⟨S16x256x5, .f32⟩
  | .hbm, ⟨16, _⟩ => ⟨S_, .i32⟩
  | .hbm, ⟨17, _⟩ => ⟨S16x256x128x1, .f32⟩
  | .hbm, ⟨18, _⟩ => ⟨S16x256x128x4, .f32⟩
  | .hbm, ⟨19, _⟩ => ⟨S16x256x128x4, .f32⟩
  | .hbm, ⟨20, _⟩ => ⟨S16x256x128x132, .f32⟩
  | .hbm, ⟨21, _⟩ => ⟨S16x256x128x1, .f32⟩
  | .hbm, ⟨22, _⟩ => ⟨S16x256x128x4, .f32⟩
  | .hbm, ⟨23, _⟩ => ⟨S16x256x128x4, .f32⟩
  | .hbm, ⟨24, _⟩ => ⟨S16x256x128x136, .f32⟩
  | .hbm, ⟨25, _⟩ => ⟨S16x256x128x128, .f32⟩
  | .local _ .vmem, ⟨0, _⟩ => ⟨S16x128x16x128, .f32⟩
  | .local _ .vmem, ⟨1, _⟩ => ⟨S16x128x16x128, .f32⟩
  | .local _ .vmem, ⟨2, _⟩ => ⟨S16x128, .f32⟩
  | .local _ .vmem, ⟨3, _⟩ => ⟨S16x128, .f32⟩
  | .local _ .vmem, ⟨4, _⟩ => ⟨S1x64x128x136, .f32⟩
  | .local _ .vmem, ⟨5, _⟩ => ⟨S1x64x128x136, .f32⟩
  | .local _ .vmem, ⟨6, _⟩ => ⟨S1x64x5, .f32⟩
  | .local _ .vmem, ⟨7, _⟩ => ⟨S1x64x5, .f32⟩
  | .local _ .vmem, ⟨8, _⟩ => ⟨S1x64x128x128, .f32⟩
  | .local _ .vmem, ⟨9, _⟩ => ⟨S1x64x128x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x128x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![16, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x64x128x136 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x5 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x64x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S16x128_S16x128_0_0 : ∀ a, (![0, 0] : Fin 2 → Nat) a + S16x128.size a ≤ S16x128.size a
  h_S16x128 : 0 < S16x128.numel
  inb_S16x128x16x128_S16x128x16x128_0_0_0_0 : ∀ a, (![0, 0, 0, 0] : Fin 4 → Nat) a + S16x128x16x128.size a ≤ S16x128x16x128.size a
  h_S16x128x16x128 : 0 < S16x128x16x128.numel
  reduces_S16x128x16x128_S16x128x16 : S16x128x16x128.Reduces [3] S16x128x16
  reduces_S16x128x16_S16x128 : S16x128x16.Reduces [2] S16x128
  shapeCasts_S16x128_S16x128 : S16x128.ShapeCasts S16x128
  shapeCasts_S16x10_S16x2x5 : S16x10.ShapeCasts S16x2x5
  bcast_S_S16x2x5 : S_.BroadcastsInDim S16x2x5 (![] : Fin 0 → Fin S16x2x5.rank)
  shapeCasts_S16x2x5_S1x16x1x2x1x5 : S16x2x5.ShapeCasts S1x16x1x2x1x5
  bcast_S1x16x1x2x1x5_S1x16x128x2x1x5_0_1_2_3_4_5 : S1x16x1x2x1x5.BroadcastsInDim S1x16x128x2x1x5 (![0, 1, 2, 3, 4, 5] : Fin 6 → Fin S1x16x128x2x1x5.rank)
  shapeCasts_S1x16x128x2x1x5_S16x256x5 : S1x16x128x2x1x5.ShapeCasts S16x256x5
  slices_S16x256x128x128_S16x256x128x1_0_0_0_0 : S16x256x128x128.Slices ![0, 0, 0, 0] S16x256x128x1
  slices_S16x256x128x128_S16x256x128x4_0_0_0_1 : S16x256x128x128.Slices ![0, 0, 0, 1] S16x256x128x4
  concatenates_S16x256x128x4_S16x256x128x128_S16x256x128x132_d3 : Shape.Concatenates [S16x256x128x4, S16x256x128x128] S16x256x128x132 3
  slices_S16x256x128x132_S16x256x128x1_0_0_0_131 : S16x256x128x132.Slices ![0, 0, 0, 131] S16x256x128x1
  slices_S16x256x128x132_S16x256x128x4_0_0_0_127 : S16x256x128x132.Slices ![0, 0, 0, 127] S16x256x128x4
  concatenates_S16x256x128x132_S16x256x128x4_S16x256x128x136_d3 : Shape.Concatenates [S16x256x128x132, S16x256x128x4] S16x256x128x136 3
  inb_S1x64x5_S1x64x1_0_0_0 : ∀ a, (![0, 0, 0] : Fin 3 → Nat) a + S1x64x1.size a ≤ S1x64x5.size a
  h_S1x64x1 : 0 < S1x64x1.numel
  shapeCasts_S1x64x1_S64 : S1x64x1.ShapeCasts S64
  shapeCasts_S64_S64x1x1 : S64.ShapeCasts S64x1x1
  inb_S1x64x128x136_S1x64x128x128_0_0_0_0 : ∀ a, (![0, 0, 0, 0] : Fin 4 → Nat) a + S1x64x128x128.size a ≤ S1x64x128x136.size a
  h_S1x64x128x128 : 0 < S1x64x128x128.numel
  shapeCasts_S1x64x128x128_S64x128x128 : S1x64x128x128.ShapeCasts S64x128x128
  broadcasts_S64x1x1_S64x128x128 : S64x1x1.Broadcasts S64x128x128
  inb_S1x64x5_S1x64x1_0_0_1 : ∀ a, (![0, 0, 1] : Fin 3 → Nat) a + S1x64x1.size a ≤ S1x64x5.size a
  inb_S1x64x128x136_S1x64x128x128_0_0_0_2 : ∀ a, (![0, 0, 0, 2] : Fin 4 → Nat) a + S1x64x128x128.size a ≤ S1x64x128x136.size a
  inb_S1x64x5_S1x64x1_0_0_2 : ∀ a, (![0, 0, 2] : Fin 3 → Nat) a + S1x64x1.size a ≤ S1x64x5.size a
  inb_S1x64x128x136_S1x64x128x128_0_0_0_4 : ∀ a, (![0, 0, 0, 4] : Fin 4 → Nat) a + S1x64x128x128.size a ≤ S1x64x128x136.size a
  inb_S1x64x5_S1x64x1_0_0_3 : ∀ a, (![0, 0, 3] : Fin 3 → Nat) a + S1x64x1.size a ≤ S1x64x5.size a
  inb_S1x64x128x136_S1x64x128x128_0_0_0_6 : ∀ a, (![0, 0, 0, 6] : Fin 4 → Nat) a + S1x64x128x128.size a ≤ S1x64x128x136.size a
  inb_S1x64x5_S1x64x1_0_0_4 : ∀ a, (![0, 0, 4] : Fin 3 → Nat) a + S1x64x1.size a ≤ S1x64x5.size a
  inb_S1x64x128x136_S1x64x128x128_0_0_0_8 : ∀ a, (![0, 0, 0, 8] : Fin 4 → Nat) a + S1x64x128x128.size a ≤ S1x64x128x136.size a
  inb_S1x64x128x128_S1x64x128x128_0_0_0_0 : ∀ a, (![0, 0, 0, 0] : Fin 4 → Nat) a + S1x64x128x128.size a ≤ S1x64x128x128.size a
  shapeCasts_S64x128x128_S1x64x128x128 : S64x128x128.ShapeCasts S1x64x128x128
  dot_S16x256_S10x256_S16x10_1_1_0_0_n_n_wf : DotDims.WF S16x256 S10x256 S16x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x16x128.size a ≤ S16x256x128x128.size a
  hwx0_0 : ∀ i : grid0.Coords, EltTy.bits .f32 = 32 ∨ (Rect.block (s := S16x256x128x128) S16x128x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x256.size a
  hwx0_1 : ∀ i : grid0.Coords, EltTy.bits .f32 = 32 ∨ (Rect.block (s := S16x256) S16x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x128x136.size a ≤ S16x256x128x136.size a
  hwx1_0 : ∀ i : grid1.Coords, EltTy.bits .f32 = 32 ∨ (Rect.block (s := S16x256x128x136) S1x64x128x136.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x5.size a ≤ S16x256x5.size a
  hwx1_1 : ∀ i : grid1.Coords, EltTy.bits .f32 = 32 ∨ (Rect.block (s := S16x256x5) S1x64x5.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x128x128.size a ≤ S16x256x128x128.size a
  hwx1_2 : ∀ i : grid1.Coords, EltTy.bits .f32 = 32 ∨ (Rect.block (s := S16x256x128x128) S1x64x128x128.size (cc1_transform_2 i) (hinb1_2 i)).WholeWords (EltTy.packing .f32)

variable [Facts₀]

def dot_S16x256_S10x256_S16x10_1_1_0_0_n_n : DotDims S16x256 S10x256 S16x10 where
  lhsContracting := [1]
  rhsContracting := [1]
  lhsNonContracting := [0]
  rhsNonContracting := [0]
  lhsBatch := []
  rhsBatch := []
  wf := dot_S16x256_S10x256_S16x10_1_1_0_0_n_n_wf

abbrev win0_0 : Pipeline.Window sig grid0 :=
  Pipeline.Window.ofSpec (Memref.whole main_arg0) S16x128x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v12) S1x64x128x136.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x64x5.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x64x128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x256x128x128 : Shape := ⟨4, ![16, 256, 128, 128]⟩
abbrev S10x256 : Shape := ⟨2, ![10, 256]⟩
abbrev S_ : Shape := ⟨0, ![]⟩
abbrev S16x256 : Shape := ⟨2, ![16, 256]⟩
abbrev S16x10 : Shape := ⟨2, ![16, 10]⟩
abbrev S16x2x5 : Shape := ⟨3, ![16, 2, 5]⟩
abbrev S256 : Shape := ⟨1, ![256]⟩
abbrev S256x1 : Shape := ⟨2, ![256, 1]⟩
abbrev S16x256x5 : Shape := ⟨3, ![16, 256, 5]⟩
abbrev S16x256x128x1 : Shape := ⟨4, ![16, 256, 128, 1]⟩
abbrev S16x256x128x4 : Shape := ⟨4, ![16, 256, 128, 4]⟩
abbrev S16x256x128x132 : Shape := ⟨4, ![16, 256, 128, 132]⟩
abbrev S16x256x128x136 : Shape := ⟨4, ![16, 256, 128, 136]⟩
abbrev S16x256x1 : Shape := ⟨3, ![16, 256, 1]⟩
abbrev S16x256x1x1 : Shape := ⟨4, ![16, 256, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S10x256, .f32⟩
  | .hbm, ⟨2, _⟩ => ⟨S_, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S16x256, .f32⟩
  | .hbm, ⟨7, _⟩ => ⟨S16x10, .f32⟩
  | .hbm, ⟨8, _⟩ => ⟨S16x2x5, .f32⟩
  | .hbm, ⟨9, _⟩ => ⟨S16x2x5, .f32⟩
  | .hbm, ⟨10, _⟩ => ⟨S16x2x5, .f32⟩
  | .hbm, ⟨11, _⟩ => ⟨S_, .f32⟩
  | .hbm, ⟨12, _⟩ => ⟨S16x2x5, .f32⟩
  | .hbm, ⟨13, _⟩ => ⟨S16x2x5, .f32⟩
  | .hbm, ⟨14, _⟩ => ⟨S_, .f32⟩
  | .hbm, ⟨15, _⟩ => ⟨S16x2x5, .f32⟩
  | .hbm, ⟨16, _⟩ => ⟨S16x2x5, .f32⟩
  | .hbm, ⟨17, _⟩ => ⟨S256, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S_, .i32⟩
  | .hbm, ⟨27, _⟩ => ⟨S256, .i32⟩
  | .hbm, ⟨28, _⟩ => ⟨S256, .i1⟩
  | .hbm, ⟨29, _⟩ => ⟨S_, .i32⟩
  | .hbm, ⟨30, _⟩ => ⟨S256, .i32⟩
  | .hbm, ⟨31, _⟩ => ⟨S256, .i1⟩
  | .hbm, ⟨32, _⟩ => ⟨S_, .i32⟩
  | .hbm, ⟨33, _⟩ => ⟨S_, .i1⟩
  | .hbm, ⟨34, _⟩ => ⟨S256, .i1⟩
  | .hbm, ⟨35, _⟩ => ⟨S256, .i1⟩
  | .hbm, ⟨36, _⟩ => ⟨S256, .i1⟩
  | .hbm, ⟨37, _⟩ => ⟨S256, .i32⟩
  | .hbm, ⟨38, _⟩ => ⟨S256, .i32⟩
  | .hbm, ⟨39, _⟩ => ⟨S256, .i32⟩
  | .hbm, ⟨40, _⟩ => ⟨S_, .i32⟩
  | .hbm, ⟨41, _⟩ => ⟨S256, .i32⟩
  | .hbm, ⟨42, _⟩ => ⟨S256, .i1⟩
  | .hbm, ⟨43, _⟩ => ⟨S_, .i32⟩
  | .hbm, ⟨44, _⟩ => ⟨S256, .i32⟩
  | .hbm, ⟨45, _⟩ => ⟨S256, .i32⟩
  | .hbm, ⟨46, _⟩ => ⟨S256, .i32⟩
  | .hbm, ⟨47, _⟩ => ⟨S256x1, .i32⟩
  | .hbm, ⟨48, _⟩ => ⟨S16x256x5, .f32⟩
  | .hbm, ⟨49, _⟩ => ⟨S_, .i32⟩
  | .hbm, ⟨50, _⟩ => ⟨S16x256x128x1, .f32⟩
  | .hbm, ⟨51, _⟩ => ⟨S16x256x128x4, .f32⟩
  | .hbm, ⟨52, _⟩ => ⟨S16x256x128x4, .f32⟩
  | .hbm, ⟨53, _⟩ => ⟨S16x256x128x132, .f32⟩
  | .hbm, ⟨54, _⟩ => ⟨S16x256x128x1, .f32⟩
  | .hbm, ⟨55, _⟩ => ⟨S16x256x128x4, .f32⟩
  | .hbm, ⟨56, _⟩ => ⟨S16x256x128x4, .f32⟩
  | .hbm, ⟨57, _⟩ => ⟨S16x256x128x136, .f32⟩
  | .hbm, ⟨58, _⟩ => ⟨S16x256x1, .f32⟩
  | .hbm, ⟨59, _⟩ => ⟨S16x256, .f32⟩
  | .hbm, ⟨60, _⟩ => ⟨S16x256x1x1, .f32⟩
  | .hbm, ⟨61, _⟩ => ⟨S16x256x128x128, .f32⟩
  | .hbm, ⟨62, _⟩ => ⟨S16x256x128x128, .f32⟩
  | .hbm, ⟨63, _⟩ => ⟨S16x256x128x128, .f32⟩
  | .hbm, ⟨64, _⟩ => ⟨S16x256x1, .f32⟩
  | .hbm, ⟨65, _⟩ => ⟨S16x256, .f32⟩
  | .hbm, ⟨66, _⟩ => ⟨S16x256x1x1, .f32⟩
  | .hbm, ⟨67, _⟩ => ⟨S16x256x128x128, .f32⟩
  | .hbm, ⟨68, _⟩ => ⟨S16x256x128x128, .f32⟩
  | .hbm, ⟨69, _⟩ => ⟨S16x256x128x128, .f32⟩
  | .hbm, ⟨70, _⟩ => ⟨S16x256x128x128, .f32⟩
  | .hbm, ⟨71, _⟩ => ⟨S16x256x1, .f32⟩
  | .hbm, ⟨72, _⟩ => ⟨S16x256, .f32⟩
  | .hbm, ⟨73, _⟩ => ⟨S16x256x1x1, .f32⟩
  | .hbm, ⟨74, _⟩ => ⟨S16x256x128x128, .f32⟩
  | .hbm, ⟨75, _⟩ => ⟨S16x256x128x128, .f32⟩
  | .hbm, ⟨76, _⟩ => ⟨S16x256x128x128, .f32⟩
  | .hbm, ⟨77, _⟩ => ⟨S16x256x128x128, .f32⟩
  | .hbm, ⟨78, _⟩ => ⟨S16x256x1, .f32⟩
  | .hbm, ⟨79, _⟩ => ⟨S16x256, .f32⟩
  | .hbm, ⟨80, _⟩ => ⟨S16x256x1x1, .f32⟩
  | .hbm, ⟨81, _⟩ => ⟨S16x256x128x128, .f32⟩
  | .hbm, ⟨82, _⟩ => ⟨S16x256x128x128, .f32⟩
  | .hbm, ⟨83, _⟩ => ⟨S16x256x128x128, .f32⟩
  | .hbm, ⟨84, _⟩ => ⟨S16x256x128x128, .f32⟩
  | .hbm, ⟨85, _⟩ => ⟨S16x256x1, .f32⟩
  | .hbm, ⟨86, _⟩ => ⟨S16x256, .f32⟩
  | .hbm, ⟨87, _⟩ => ⟨S16x256x1x1, .f32⟩
  | .hbm, ⟨88, _⟩ => ⟨S16x256x128x128, .f32⟩
  | .hbm, ⟨89, _⟩ => ⟨S16x256x128x128, .f32⟩
  | .hbm, ⟨90, _⟩ => ⟨S16x256x128x128, .f32⟩
  | .hbm, ⟨91, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v12 : Ref sig .tc := ⟨.hbm, 39, rfl⟩
abbrev main_c_3 : Ref sig .tc := ⟨.hbm, 40, rfl⟩
abbrev main_v13 : Ref sig .tc := ⟨.hbm, 41, rfl⟩
abbrev main_v14 : Ref sig .tc := ⟨.hbm, 42, rfl⟩
abbrev main_c_4 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_5 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩

abbrev nD : Nat := 1
abbrev τ : Topo := Topo.v7x

variable {F : FTy → Type} [FloatOps F]

class Facts₀ : Prop where
  reducesTo_S16x256x128x128_S16x256_d2_3 : S16x256x128x128.ReducesTo [2, 3] S16x256
  h_S_ : 0 < S_.numel
  bcast_S_S16x256 : S_.BroadcastsInDim S16x256 (![] : Fin 0 → Fin S16x256.rank)
  shapeCasts_S16x10_S16x2x5 : S16x10.ShapeCasts S16x2x5
  bcast_S_S16x2x5 : S_.BroadcastsInDim S16x2x5 (![] : Fin 0 → Fin S16x2x5.rank)
  bcast_S_S256 : S_.BroadcastsInDim S256 (![] : Fin 0 → Fin S256.rank)
  bcast_S256_S256x1_0 : S256.BroadcastsInDim S256x1 (![0] : Fin 1 → Fin S256x1.rank)
  slices_S16x256x128x128_S16x256x128x1_0_0_0_0 : S16x256x128x128.Slices ![0, 0, 0, 0] S16x256x128x1
  slices_S16x256x128x128_S16x256x128x4_0_0_0_1 : S16x256x128x128.Slices ![0, 0, 0, 1] S16x256x128x4
  concatenates_S16x256x128x4_S16x256x128x128_S16x256x128x132_d3 : Shape.Concatenates [S16x256x128x4, S16x256x128x128] S16x256x128x132 3
  slices_S16x256x128x132_S16x256x128x1_0_0_0_131 : S16x256x128x132.Slices ![0, 0, 0, 131] S16x256x128x1
  slices_S16x256x128x132_S16x256x128x4_0_0_0_127 : S16x256x128x132.Slices ![0, 0, 0, 127] S16x256x128x4
  concatenates_S16x256x128x132_S16x256x128x4_S16x256x128x136_d3 : Shape.Concatenates [S16x256x128x132, S16x256x128x4] S16x256x128x136 3
  slices_S16x256x5_S16x256x1_0_0_0 : S16x256x5.Slices ![0, 0, 0] S16x256x1
  shapeCasts_S16x256x1_S16x256 : S16x256x1.ShapeCasts S16x256
  bcast_S16x256_S16x256x1x1_0_1 : S16x256.BroadcastsInDim S16x256x1x1 (![0, 1] : Fin 2 → Fin S16x256x1x1.rank)
  slices_S16x256x128x136_S16x256x128x128_0_0_0_0 : S16x256x128x136.Slices ![0, 0, 0, 0] S16x256x128x128
  bcast_S16x256x1x1_S16x256x128x128_0_1_2_3 : S16x256x1x1.BroadcastsInDim S16x256x128x128 (![0, 1, 2, 3] : Fin 4 → Fin S16x256x128x128.rank)
  slices_S16x256x5_S16x256x1_0_0_1 : S16x256x5.Slices ![0, 0, 1] S16x256x1
  slices_S16x256x128x136_S16x256x128x128_0_0_0_2 : S16x256x128x136.Slices ![0, 0, 0, 2] S16x256x128x128
  slices_S16x256x5_S16x256x1_0_0_2 : S16x256x5.Slices ![0, 0, 2] S16x256x1
  slices_S16x256x128x136_S16x256x128x128_0_0_0_4 : S16x256x128x136.Slices ![0, 0, 0, 4] S16x256x128x128
  slices_S16x256x5_S16x256x1_0_0_3 : S16x256x5.Slices ![0, 0, 3] S16x256x1
  slices_S16x256x128x136_S16x256x128x128_0_0_0_6 : S16x256x128x136.Slices ![0, 0, 0, 6] S16x256x128x128
  slices_S16x256x5_S16x256x1_0_0_4 : S16x256x5.Slices ![0, 0, 4] S16x256x1
  slices_S16x256x128x136_S16x256x128x128_0_0_0_8 : S16x256x128x136.Slices ![0, 0, 0, 8] S16x256x128x128
  dot_S16x256_S10x256_S16x10_1_1_0_0_n_n_wf : DotDims.WF S16x256 S10x256 S16x10 [1] [1] [0] [0] [] []
  gather_S16x2x5_S256x1_S16x256x5_02_1_n_n_1_1_1615_wf : GatherDims.WF S16x2x5 S256x1 S16x256x5 [0, 2] [1] [] [1] [] 1 ![16, 1, 5]

variable [Facts₀]

def dot_S16x256_S10x256_S16x10_1_1_0_0_n_n : DotDims S16x256 S10x256 S16x10 where
  lhsContracting := [1]
  rhsContracting := [1]
  lhsNonContracting := [0]
  rhsNonContracting := [0]
  lhsBatch := []
  rhsBatch := []
  wf := dot_S16x256_S10x256_S16x10_1_1_0_0_n_n_wf
def gather_S16x2x5_S256x1_S16x256x5_02_1_n_n_1_1_1615 : GatherDims S16x2x5 S256x1 S16x256x5 where
  offsetDims := [0, 2]
  collapsedSliceDims := [1]
  operandBatchingDims := []
  startIndicesBatchingDims := []
  startIndexMap := [1]
  indexVectorDim := 1
  sliceSizes := ![16, 1, 5]
  wf := gather_S16x2x5_S256x1_S16x256x5_02_1_n_n_1_1_1615_wf

class Facts : Prop extends Facts₀ where

variable [Facts]
-- ==== Proof.Spec.lean ====
/-
  The mathematics both programs compute, as functions of whole arrays, stated once over literal shapes.

  For an input x : [16, 256, 128, 128] and a weight W : [10, 256]:
    * avgR x      — the mean of every channel plane: the sum over the last two axes, divided by 16384;
    * gate a W    — the gate 1 / (1 + exp (-(a · Wᵀ))), reshaped to [16, 2, 5];
    * tile f      — the gate laid out per channel by reshape, broadcast, reshape: channel c gets row c mod 2;
    * gath f      — the same layout by a gather whose indices are c mod 2, computed with integer remainder;
    * padOf x     — x reflect-padded by four columns on each side of the last axis;
    * convR xp g  — five taps, ((((g₀·xp₀ + g₁·xp₂) + g₂·xp₄) + g₃·xp₆) + g₄·xp₈), xpₒ the slice of xp shifted by o
                    columns, as slices, broadcasts, products and sums of whole arrays;
    * conv xp g   — the same five taps written index by index.
-/
import Idealize.ShloMosaic.PureOps.Ideal
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx

abbrev S0 : Shape := ⟨0, ![]⟩
abbrev SX : Shape := ⟨4, ![16, 256, 128, 128]⟩
abbrev SXP : Shape := ⟨4, ![16, 256, 128, 136]⟩
abbrev SX1 : Shape := ⟨4, ![16, 256, 128, 1]⟩
abbrev SX4 : Shape := ⟨4, ![16, 256, 128, 4]⟩
abbrev SX132 : Shape := ⟨4, ![16, 256, 128, 132]⟩
abbrev SW : Shape := ⟨2, ![10, 256]⟩
abbrev SA : Shape := ⟨2, ![16, 256]⟩
abbrev SD : Shape := ⟨2, ![16, 10]⟩
abbrev SG : Shape := ⟨3, ![16, 2, 5]⟩
abbrev SF : Shape := ⟨3, ![16, 256, 5]⟩
abbrev SF1 : Shape := ⟨3, ![16, 256, 1]⟩
abbrev SA11 : Shape := ⟨4, ![16, 256, 1, 1]⟩
abbrev ST6 : Shape := ⟨6, ![1, 16, 1, 2, 1, 5]⟩
abbrev ST6b : Shape := ⟨6, ![1, 16, 128, 2, 1, 5]⟩
abbrev SC : Shape := ⟨1, ![256]⟩
abbrev SC1 : Shape := ⟨2, ![256, 1]⟩

variable {F : FTy → Type} [FloatOps F]

/-! ## The channel means -/

/-- The mean of each [128, 128] plane: the plane's sum from zero, divided by 16384. -/
def avgR (x : FVec F SX .f32) : FVec F SA .f32 :=
  Host.divf
    (Host.reduceAdd x (constant S0 .f32 0x00000000#32) (by decide : SX.ReducesTo [2, 3] SA) (by decide : 0 < S0.numel))
    (broadcastInDim SA ![] (by decide : S0.BroadcastsInDim SA (![] : Fin 0 → Fin SA.rank)) (constant S0 .f32 0x46800000#32))

/-! ## The gate -/

/-- The contraction of the channel axis of the means with that of the weight. -/
def dotD : DotDims SA SW SD where
  lhsContracting := [1]
  rhsContracting := [1]
  lhsNonContracting := [0]
  rhsNonContracting := [0]
  lhsBatch := []
  rhsBatch := []
  wf := by decide

/-- The constant one, everywhere on [16, 2, 5]. -/
def ones : FVec F SG .f32 :=
  broadcastInDim SG ![] (by decide : S0.BroadcastsInDim SG (![] : Fin 0 → Fin SG.rank)) (constant S0 .f32 0x3F800000#32)

/-- 1 / (1 + exp (-(a · Wᵀ))) as [16, 2, 5]. -/
def gate (a : FVec F SA .f32) (W : FVec F SW .f32) : FVec F SG .f32 :=
  Host.divf ones
    (addf ones (Host.exp (Host.negf (shapeCast SG (Host.dotGeneral dotD none a W) (by decide : SD.ShapeCasts SG)))))

/-! ## One gate row per channel, two ways -/

/-- Reshape to [1, 16, 1, 2, 1, 5], repeat the third axis 128 times, reshape to [16, 256, 5]. -/
def tile (f : FVec F SG .f32) : FVec F SF .f32 :=
  shapeCast SF
    (broadcastInDim ST6b ![0, 1, 2, 3, 4, 5]
      (by decide : ST6.BroadcastsInDim ST6b (![0, 1, 2, 3, 4, 5] : Fin 6 → Fin ST6b.rank))
      (shapeCast ST6 f (by decide : SG.ShapeCasts ST6)))
    (by decide : ST6b.ShapeCasts SF)

/-- The integer two, and where (2 == 0) 1 2: the divisor the remainder is taken by. -/
def two : IVec S0 32 := constantI S0 32 2#32
def divisor : IVec S0 32 := select (cmpi .eq (id two) (constantI S0 32 0#32)) (constantI S0 32 1#32) (id two)

def bcC {w : Nat} (v : IVec S0 w) : IVec SC w :=
  broadcastInDim SC ![] (by decide : S0.BroadcastsInDim SC (![] : Fin 0 → Fin SC.rank)) v

/-- The truncated remainder of 0 … 255 by the divisor. -/
def rem0 : IVec SC 32 := Host.remsi (iotaInDim SC 32 0) (bcC divisor)

/-- The remainder with the divisor's sign: the truncated one, plus the divisor where the signs differ and it is not zero. -/
def remS : IVec SC 32 :=
  select
    (andi
      (cmpi .ne (cmpi .slt rem0 (bcC (constantI S0 32 0#32))) (bcC (cmpi .slt divisor (constantI S0 32 0#32))))
      (cmpi .ne rem0 (bcC (constantI S0 32 0#32))))
    (addi rem0 (bcC divisor))
    rem0

/-- The gather's start indices: a negative remainder wrapped by two, as a column. -/
def gidx : IVec SC1 32 :=
  broadcastInDim SC1 ![0] (by decide : SC.BroadcastsInDim SC1 (![0] : Fin 1 → Fin SC1.rank))
    (select (cmpi .slt remS (bcC (constantI S0 32 0#32))) (addi remS (bcC (constantI S0 32 2#32))) remS)

/-- The gather of one row of the middle axis per channel. -/
def gatherD : GatherDims SG SC1 SF where
  offsetDims := [0, 2]
  collapsedSliceDims := [1]
  operandBatchingDims := []
  startIndicesBatchingDims := []
  startIndexMap := [1]
  indexVectorDim := 1
  sliceSizes := ![16, 1, 5]
  wf := by decide

def gath (f : FVec F SG .f32) : FVec F SF .f32 := Host.gather gatherD f gidx

/-! ## The reflect padding -/

/-- Columns 4, 3, 2, 1 of x, then x: 132 columns. -/
def padL (x : FVec F SX .f32) : FVec F SX132 .f32 :=
  concatenate SX132 3
    [⟨SX4, Host.reverse [3] (extractStridedSlice SX4 ![0, 0, 0, 1] x (by decide : SX.Slices ![0, 0, 0, 1] SX4))⟩, ⟨SX, x⟩]
    (by decide : Shape.Concatenates [SX4, SX] SX132 3)

/-- … then columns 126, 125, 124, 123 of x after it: 136 columns. -/
def padOf (x : FVec F SX .f32) : FVec F SXP .f32 :=
  concatenate SXP 3
    [⟨SX132, padL x⟩,
     ⟨SX4, Host.reverse [3] (extractStridedSlice SX4 ![0, 0, 0, 127] (padL x) (by decide : SX132.Slices ![0, 0, 0, 127] SX4))⟩]
    (by decide : Shape.Concatenates [SX132, SX4] SXP 3)

/-! ## The five taps, as whole-array operations -/

/-- A [16, 256, 1] column of the filter, spread over every plane position. -/
def spread (y : FVec F SF1 .f32) : FVec F SX .f32 :=
  broadcastInDim SX ![0, 1, 2, 3] (by decide : SA11.BroadcastsInDim SX (![0, 1, 2, 3] : Fin 4 → Fin SX.rank))
    (broadcastInDim SA11 ![0, 1] (by decide : SA.BroadcastsInDim SA11 (![0, 1] : Fin 2 → Fin SA11.rank))
      (shapeCast SA y (by decide : SF1.ShapeCasts SA)))

def convR (xp : FVec F SXP .f32) (g : FVec F SF .f32) : FVec F SX .f32 :=
  addf (addf (addf (addf
    (mulf (spread (extractStridedSlice SF1 ![0, 0, 0] g (by decide : SF.Slices ![0, 0, 0] SF1)))
          (extractStridedSlice SX ![0, 0, 0, 0] xp (by decide : SXP.Slices ![0, 0, 0, 0] SX)))
    (mulf (spread (extractStridedSlice SF1 ![0, 0, 1] g (by decide : SF.Slices ![0, 0, 1] SF1)))
          (extractStridedSlice SX ![0, 0, 0, 2] xp (by decide : SXP.Slices ![0, 0, 0, 2] SX))))
    (mulf (spread (extractStridedSlice SF1 ![0, 0, 2] g (by decide : SF.Slices ![0, 0, 2] SF1)))
          (extractStridedSlice SX ![0, 0, 0, 4] xp (by decide : SXP.Slices ![0, 0, 0, 4] SX))))
    (mulf (spread (extractStridedSlice SF1 ![0, 0, 3] g (by decide : SF.Slices ![0, 0, 3] SF1)))
          (extractStridedSlice SX ![0, 0, 0, 6] xp (by decide : SXP.Slices ![0, 0, 0, 6] SX))))
    (mulf (spread (extractStridedSlice SF1 ![0, 0, 4] g (by decide : SF.Slices ![0, 0, 4] SF1)))
          (extractStridedSlice SX ![0, 0, 0, 8] xp (by decide : SXP.Slices ![0, 0, 0, 8] SX)))

/-! ## The five taps, index by index (extended reals) -/

/-- Column w + o of the padded row, for a shift o ≤ 8. -/
def shift (w : Fin 128) (o : Nat) (ho : o ≤ 8) : Fin 136 := ⟨w.val + o, by have := w.isLt; omega⟩

/-- Tap k at shift o of sample n, channel c, row h, column w. -/
def tapAt (xp : FVec Ideal SXP .f32) (g : FVec Ideal SF .f32) (n : Fin 16) (c : Fin 256) (h : Fin 128) (w : Fin 128)
    (k : Fin 5) (o : Nat) (ho : o ≤ 8) : EReal :=
  g (ix3 n c k) * xp (ix4 n c h (shift w o ho))

def convAt (xp : FVec Ideal SXP .f32) (g : FVec Ideal SF .f32) (n : Fin 16) (c : Fin 256) (h : Fin 128) (w : Fin 128) : EReal :=
  (((tapAt xp g n c h w 0 0 (by omega) + tapAt xp g n c h w 1 2 (by omega)) + tapAt xp g n c h w 2 4 (by omega))
    + tapAt xp g n c h w 3 6 (by omega)) + tapAt xp g n c h w 4 8 (by omega)

def conv (xp : FVec Ideal SXP .f32) (g : FVec Ideal SF .f32) : FVec Ideal SX .f32 :=
  fun i => convAt xp g (i 0) (i 1) (i 2) (i 3)

end Cert.Spec

end
-- ==== Proof.TileGather.lean ====
/-
  The two layouts of the gate per channel are one array: reading the reshape–broadcast–reshape chain at (n, c, k)
  walks back to row c mod 2 of the gate, and the gather's start index at channel c is c mod 2.

  Both sides are the [16, 256, 5] array whose entry (n, c, k) is f (n, c mod 2, k).
    * The tiling: entry (n, c, k) of [16, 256, 5] has row-major position (n·256 + c)·5 + k, which in
      [1, 16, 128, 2, 1, 5] is the position of (0, n, c / 2, c mod 2, 0, k); the broadcast forgets the third
      coordinate; and (0, n, 0, c mod 2, 0, k) in [1, 16, 1, 2, 1, 5] has position (n·2 + c mod 2)·5 + k, the
      position of (n, c mod 2, k) in [16, 2, 5].
    * The gather: its operand index at (n, c, k) is (n, s, k), s the start index read at (c, 0), clamped into [0, 1].
      The start index is the remainder of c by two as 32-bit integer arithmetic computes it (the truncated
      remainder, corrected by the divisor where the signs differ, wrapped by two where negative); for the 256
      channels it is the word c mod 2, so s = c mod 2 and the clamp does nothing.
-/
import proofs.«112700_j52905407152335_1_alg».proof.Proof.Spec
import Idealize.ShloMosaic.Lib.ValueIdxRank6

noncomputable section

namespace Cert.Spec

open Idealize.ShloMosaic Idealize.ShloMosaic.ValueIdx

namespace TileGather

/-- Channel c's row of the gate: c mod 2. -/
abbrev par (c : Fin 256) : Fin 2 := ⟨c.val % 2, Nat.mod_lt _ (by decide)⟩

/-! ## The tiling at an index -/

/-- Entry (n, c, k) of the tiled gate is entry (n, c mod 2, k) of the gate: the three steps of the chain read back
    through equal row-major positions, the broadcast dropping the coordinate c / 2. -/
theorem tile_apply (f : FVec Ideal SG .f32) (n : Fin 16) (c : Fin 256) (k : Fin 5) :
    tile f (ix3 n c k) = f (ix3 n (par c) k) := by
  unfold tile
  have hc := c.isLt
  -- [16, 256, 5] at (n, c, k) is [1, 16, 128, 2, 1, 5] at (0, n, c / 2, c mod 2, 0, k)
  refine (shapeCast_apply _ _ (ix3 n c k)
    (ix6 (0 : Fin 1) n (⟨c.val / 2, by omega⟩ : Fin 128) (par c) (0 : Fin 1) k) ?_).trans ?_
  · rw [Shape.rowMajor_val_six, Shape.rowMajor_val_three]
    show ((((0 * 16 + n.val) * 128 + c.val / 2) * 2 + c.val % 2) * 1 + 0) * 5 + k.val
      = (n.val * 256 + c.val) * 5 + k.val
    omega
  -- the broadcast along the third axis reads (0, n, 0, c mod 2, 0, k)
  refine (broadcastInDim_apply _ _ _ _ (ix6 (0 : Fin 1) n (0 : Fin 1) (par c) (0 : Fin 1) k) ?_).trans ?_
  · intro a
    match a with
    | ⟨0, _⟩ => rfl
    | ⟨1, _⟩ => rfl
    | ⟨2, _⟩ => rfl
    | ⟨3, _⟩ => rfl
    | ⟨4, _⟩ => rfl
    | ⟨5, _⟩ => rfl
  -- [1, 16, 1, 2, 1, 5] at (0, n, 0, c mod 2, 0, k) is [16, 2, 5] at (n, c mod 2, k)
  refine shapeCast_apply _ _ _ (ix3 n (par c) k) ?_
  rw [Shape.rowMajor_val_six, Shape.rowMajor_val_three]
  show (n.val * 2 + c.val % 2) * 5 + k.val
    = ((((0 * 16 + n.val) * 1 + 0) * 2 + c.val % 2) * 1 + 0) * 5 + k.val
  omega

/-! ## The gather at an index -/

/-- The start index of channel c is the word c mod 2: a closed computation on 32-bit words for each of the 256
    channels (the divisor is two, every remainder is 0 or 1, no correction fires). -/
theorem gidx_apply : ∀ c : Fin 256, gidx (ix2 c (0 : Fin 1)) = BitVec.ofNat 32 (c.val % 2) := by
  decide +kernel

/-- The start index of result entry (n, c, k) is read at (c, 0): the one batch axis of the result is the channel
    axis, and the index vector has one component. -/
theorem siIdx_eq (n : Fin 16) (c : Fin 256) (k : Fin 5) (q : Fin gatherD.startIndexMap.length) :
    gatherD.siIdx (ix3 n c k) q = ix2 c (0 : Fin 1) := by
  funext b
  refine Fin.ext ?_
  match b with
  | ⟨0, _⟩ => rfl
  | ⟨1, _⟩ =>
    have := q.isLt
    show q.val = 0
    have hl : gatherD.startIndexMap.length = 1 := rfl
    omega

/-- On the gate's middle axis the slice of entry (n, c, k) starts at c mod 2: the start index read signed is
    c mod 2 ≤ 1 = 2 - 1, so the clamp leaves it. -/
theorem start_one (n : Fin 16) (c : Fin 256) (k : Fin 5) :
    gatherD.start (ix3 n c k) gidx (1 : Fin 3) = c.val % 2 := by
  unfold GatherDims.start
  rw [dif_pos (show (1 : Fin 3) ∈ gatherD.startIndexMap from List.mem_singleton.mpr rfl), siIdx_eq, gidx_apply c]
  show min (BitVec.ofNat 32 (c.val % 2)).toInt.toNat (2 - 1) = c.val % 2
  rcases Nat.mod_two_eq_zero_or_one c.val with h | h <;> rw [h] <;> decide

/-- Entry (n, c, k) of the gathered gate is entry (n, c mod 2, k) of the gate: axes 0 and 2 are offset axes (start 0,
    offsets n and k), axis 1 is collapsed (offset 0, start c mod 2); there are no batching axes. -/
theorem gath_apply (f : FVec Ideal SG .f32) (n : Fin 16) (c : Fin 256) (k : Fin 5) :
    gath f (ix3 n c k) = f (ix3 n (par c) k) := by
  unfold gath Host.gather
  congr 1
  funext a
  refine Fin.ext ?_
  show gatherD.start (ix3 n c k) gidx a + gatherD.batchCoord (ix3 n c k) a + gatherD.offCoord (ix3 n c k) a = _
  rw [GatherDims.batchCoord_eq_zero _ _ _ List.not_mem_nil, Nat.add_zero]
  match a with
  | ⟨0, _⟩ =>
    have h1 : gatherD.start (ix3 n c k) gidx (⟨0, by decide⟩ : Fin 3) = 0 := rfl
    have h2 : gatherD.offCoord (ix3 n c k) (⟨0, by decide⟩ : Fin 3) = n.val := rfl
    exact (congrArg₂ (· + ·) h1 h2).trans (Nat.zero_add _)
  | ⟨1, _⟩ =>
    have h1 := start_one n c k
    have h2 : gatherD.offCoord (ix3 n c k) (⟨1, by decide⟩ : Fin 3) = 0 := rfl
    exact (congrArg₂ (· + ·) h1 h2).trans (Nat.add_zero _)
  | ⟨2, _⟩ =>
    have h1 : gatherD.start (ix3 n c k) gidx (⟨2, by decide⟩ : Fin 3) = 0 := rfl
    have h2 : gatherD.offCoord (ix3 n c k) (⟨2, by decide⟩ : Fin 3) = k.val := rfl
    exact (congrArg₂ (· + ·) h1 h2).trans (Nat.zero_add _)

end TileGather

/-- The reshape–broadcast–reshape layout and the gather layout of the gate agree entry by entry. -/
theorem tile_eq_gath (f : FVec Ideal SG .f32) : tile f = gath f := by
  funext j
  rw [eq_ix3 j]
  exact (TileGather.tile_apply f _ _ _).trans (TileGather.gath_apply f _ _ _).symm

end Cert.Spec

end
-- ==== Proof.ConvHost.lean ====
/-
  The five taps written with slices, broadcasts, products and sums of whole arrays, read at an index, are the five taps
  written index by index.

  Two readings at explicit coordinates carry the proof. The slice of the padded array that starts at column o, read at
  (n, c, h, w), is the padded array at (n, c, h, w + o). A column k of the filter, reshaped from [16, 256, 1] to
  [16, 256], given two unit axes and repeated over every plane position, read at (n, c, h, w), is the filter at
  (n, c, k): each broadcast reads its operand at the coordinates of the axes it keeps, zero on the unit axes, and the
  reshape keeps the row-major position, (n * 256 + c) * 1 + 0 = n * 256 + c. Sums and products of arrays are taken
  entry by entry, so the two sides are the same five products added in the same order.
-/
import proofs.«112700_j52905407152335_1_alg».proof.Proof.Spec
import Idealize.ShloMosaic.Lib.ValueLayout

noncomputable section

namespace Cert.Spec

open Idealize.ShloMosaic Idealize.ShloMosaic.ValueIdx

/-- The slice of the padded array from column o, read at (n, c, h, w), is the padded array at (n, c, h, w + o). -/
theorem slice_shift_apply (o : Nat) (ho : o ≤ 8) (xp : FVec Ideal SXP .f32) (hs : SXP.Slices ![0, 0, 0, o] SX)
    (n : Fin 16) (c : Fin 256) (h w : Fin 128) :
    extractStridedSlice SX ![0, 0, 0, o] xp hs (ix4 n c h w) = xp (ix4 n c h (shift w o ho)) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => exact Nat.add_comm _ _)

/-- Column k of the filter, spread over every plane position, read at (n, c, h, w), is the filter at (n, c, k). -/
theorem spread_slice_apply (o : Nat) (k : Fin 5) (hk : k.val = o) (g : FVec Ideal SF .f32)
    (hs : SF.Slices ![0, 0, o] SF1) (n : Fin 16) (c : Fin 256) (h w : Fin 128) :
    spread (extractStridedSlice SF1 ![0, 0, o] g hs) (ix4 n c h w) = g (ix3 n c k) := by
  unfold spread
  refine (broadcastInDim_apply _ _ _ (ix4 n c h w) (ix4 n c (0 : Fin 1) (0 : Fin 1)) (fun a => ?_)).trans ?_
  · match a with
    | ⟨0, _⟩ => rfl
    | ⟨1, _⟩ => rfl
    | ⟨2, _⟩ => rfl
    | ⟨3, _⟩ => rfl
  refine (broadcastInDim_apply _ _ _ (ix4 n c (0 : Fin 1) (0 : Fin 1)) (ix2 n c) (fun a => ?_)).trans ?_
  · match a with
    | ⟨0, _⟩ => rfl
    | ⟨1, _⟩ => rfl
  refine (shapeCast_apply _ _ (ix2 n c) (ix3 n c (0 : Fin 1)) ?_).trans ?_
  · rw [Shape.rowMajor_val_three, Shape.rowMajor_val_two]
    show (n.val * 256 + c.val) * 1 + 0 = n.val * 256 + c.val
    omega
  exact extractStridedSlice_apply _ _ _ _ _ (fun ax => by
    match ax with
    | ⟨0, _⟩ => exact (Nat.zero_add _).symm
    | ⟨1, _⟩ => exact (Nat.zero_add _).symm
    | ⟨2, _⟩ => exact hk.trans (Nat.add_zero _).symm)

theorem convR_eq_conv (xp : FVec Ideal SXP .f32) (g : FVec Ideal SF .f32) : convR xp g = conv xp g := by
  funext i
  obtain ⟨n, c, h, w, rfl⟩ : ∃ (n : Fin 16) (c : Fin 256) (h w : Fin 128), i = ix4 n c h w :=
    ⟨i 0, i 1, i 2, i 3, eq_ix4 i⟩
  show convR xp g (ix4 n c h w) = convAt xp g n c h w
  unfold convAt tapAt convR
  simp only [addf_apply, mulf_apply]
  rw [slice_shift_apply 0 (by omega), slice_shift_apply 2 (by omega), slice_shift_apply 4 (by omega),
    slice_shift_apply 6 (by omega), slice_shift_apply 8 (by omega)]
  rw [spread_slice_apply 0 0 rfl, spread_slice_apply 1 1 rfl, spread_slice_apply 2 2 rfl, spread_slice_apply 3 3 rfl,
    spread_slice_apply 4 4 rfl]

end Cert.Spec

end
-- ==== Proof.LibFiniteOps.lean ====
/-
  Extended reals that are real numbers, and the operations that keep them so.

  At the ideal float instance a float is an extended real. A vector is "all real" when each of its entries is
  the image of a real number; this file shows that each operation a host program or a kernel body applies
  entrywise, by re-indexing, or by a finite sum keeps that property, under the side conditions division and
  the reciprocal square root need (a nonzero, respectively positive, real operand). It also records the sign
  facts those side conditions are discharged from: sums of nonnegative reals are nonnegative, a square is
  nonnegative, a nonnegative real plus a positive one is positive. Last, a finiteness precondition (every entry's
  absolute value below positive infinity) is read back as: the vector is all real.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ReduceAll

noncomputable section

namespace Idealize.ShloMosaic.FiniteOps

open Idealize.ShloMosaic
open scoped BigOperators

/-! ### One extended real -/

/-- An extended real that is (the image of) a real number. -/
def IsReal (a : EReal) : Prop := ∃ x : ℝ, a = (x : EReal)
/-- … that is a nonnegative real number. -/
def IsNonneg (a : EReal) : Prop := ∃ x : ℝ, 0 ≤ x ∧ a = (x : EReal)
/-- … that is a positive real number. -/
def IsPos (a : EReal) : Prop := ∃ x : ℝ, 0 < x ∧ a = (x : EReal)

theorem IsReal.coe (x : ℝ) : IsReal (x : EReal) := ⟨x, rfl⟩
theorem IsNonneg.isReal {a : EReal} (h : IsNonneg a) : IsReal a := let ⟨x, _, e⟩ := h; ⟨x, e⟩
theorem IsPos.isNonneg {a : EReal} (h : IsPos a) : IsNonneg a := let ⟨x, hx, e⟩ := h; ⟨x, hx.le, e⟩
theorem IsPos.isReal {a : EReal} (h : IsPos a) : IsReal a := h.isNonneg.isReal

/-- Being real is being neither infinity. -/
theorem isReal_iff {a : EReal} : IsReal a ↔ a ≠ ⊤ ∧ a ≠ ⊥ :=
  ⟨fun ⟨x, e⟩ => e ▸ ⟨EReal.coe_ne_top x, EReal.coe_ne_bot x⟩, fun ⟨h1, h2⟩ => ⟨a.toReal, (EReal.coe_toReal h1 h2).symm⟩⟩

/-- A nonnegative real is a real that is at least zero in the order of the extended reals. -/
theorem isNonneg_iff {a : EReal} : IsNonneg a ↔ IsReal a ∧ 0 ≤ a :=
  ⟨fun ⟨x, hx, e⟩ => ⟨⟨x, e⟩, e ▸ EReal.coe_nonneg.2 hx⟩, fun ⟨⟨x, e⟩, h⟩ => ⟨x, EReal.coe_nonneg.1 (e ▸ h), e⟩⟩

/-- A positive real is a real that is above zero in the order of the extended reals. -/
theorem isPos_iff {a : EReal} : IsPos a ↔ IsReal a ∧ 0 < a :=
  ⟨fun ⟨x, hx, e⟩ => ⟨⟨x, e⟩, e ▸ EReal.coe_pos.2 hx⟩, fun ⟨⟨x, e⟩, h⟩ => ⟨x, EReal.coe_pos.1 (e ▸ h), e⟩⟩

theorem IsPos.ne_zero {a : EReal} (h : IsPos a) : a ≠ 0 := by
  obtain ⟨x, hx, rfl⟩ := h; exact EReal.coe_ne_zero.2 hx.ne'

theorem isReal_zero : IsReal 0 := ⟨0, rfl⟩
theorem isNonneg_zero : IsNonneg 0 := ⟨0, le_rfl, rfl⟩
theorem isPos_one : IsPos 1 := ⟨1, one_pos, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.max {a b : EReal} (ha : IsReal a) (hb : IsReal b) : IsReal (Max.max a b) := by
  rcases le_total a b with h | h
  · rw [show Max.max a b = b from max_eq_right h]; exact hb
  · rw [show Max.max a b = a from max_eq_left h]; exact ha

theorem IsNonneg.add {a b : EReal} (ha : IsNonneg a) (hb : IsNonneg b) : IsNonneg (a + b) := by
  obtain ⟨x, hx, rfl⟩ := ha; obtain ⟨y, hy, rfl⟩ := hb; exact ⟨x + y, add_nonneg hx hy, (EReal.coe_add x y).symm⟩
theorem IsNonneg.mul {a b : EReal} (ha : IsNonneg a) (hb : IsNonneg b) : IsNonneg (a * b) := by
  obtain ⟨x, hx, rfl⟩ := ha; obtain ⟨y, hy, rfl⟩ := hb; exact ⟨x * y, mul_nonneg hx hy, (EReal.coe_mul x y).symm⟩
/-- A nonnegative real plus a positive real is positive. -/
theorem IsNonneg.add_pos {a b : EReal} (ha : IsNonneg a) (hb : IsPos b) : IsPos (a + b) := by
  obtain ⟨x, hx, rfl⟩ := ha; obtain ⟨y, hy, rfl⟩ := hb
  exact ⟨x + y, add_pos_of_nonneg_of_pos hx hy, (EReal.coe_add x y).symm⟩
theorem IsPos.mul {a b : EReal} (ha : IsPos a) (hb : IsPos b) : IsPos (a * b) := by
  obtain ⟨x, hx, rfl⟩ := ha; obtain ⟨y, hy, rfl⟩ := hb; exact ⟨x * y, mul_pos hx hy, (EReal.coe_mul x y).symm⟩
/-- The square of a real is a nonnegative real. -/
theorem IsReal.mul_self_nonneg {a : EReal} (ha : IsReal a) : IsNonneg (a * a) := by
  obtain ⟨x, rfl⟩ := ha; exact ⟨x * x, _root_.mul_self_nonneg x, (EReal.coe_mul x x).symm⟩
/-- The larger of a real and a nonnegative real is a nonnegative real (a rectifier's output). -/
theorem IsReal.max_nonneg {a b : EReal} (ha : IsReal a) (hb : IsNonneg b) : IsNonneg (Max.max a b) := by
  rcases le_total a b with h | h
  · rw [show Max.max a b = b from max_eq_right h]; exact hb
  · rw [show Max.max a b = a from max_eq_left h]
    obtain ⟨y, hy, rfl⟩ := hb
    exact isNonneg_iff.2 ⟨ha, le_trans (EReal.coe_nonneg.2 hy) h⟩

/-- A finite sum of reals is real. -/
theorem IsReal.sum {ι : Type} (s : Finset ι) (f : ι → EReal) (h : ∀ i ∈ s, IsReal (f i)) : IsReal (∑ i ∈ s, f i) :=
  Finset.sum_induction f IsReal (fun _ _ => IsReal.add) isReal_zero h
/-- A finite sum of nonnegative reals is a nonnegative real. -/
theorem IsNonneg.sum {ι : Type} (s : Finset ι) (f : ι → EReal) (h : ∀ i ∈ s, IsNonneg (f i)) : IsNonneg (∑ i ∈ s, f i) :=
  Finset.sum_induction f IsNonneg (fun _ _ => IsNonneg.add) isNonneg_zero h

/-- The quotient of a real by a nonzero real is real. -/
theorem IsReal.div {a b : EReal} (ha : IsReal a) (hb : IsReal b) (hb0 : b ≠ 0) : IsReal (Ideal.div a b) := by
  obtain ⟨y, rfl⟩ := hb
  rw [Ideal.div_coe (EReal.coe_ne_zero.1 hb0)]
  exact ha.mul (IsReal.coe _)
/-- The quotient of a nonnegative real by a positive real is a nonnegative real. -/
theorem IsNonneg.div_pos {a b : EReal} (ha : IsNonneg a) (hb : IsPos b) : IsNonneg (Ideal.div a b) := by
  obtain ⟨y, hy, rfl⟩ := hb
  rw [Ideal.div_coe hy.ne']
  exact ha.mul ⟨1 / y, by positivity, rfl⟩
/-- The quotient of a positive real by a positive real is a positive real. -/
theorem IsPos.div_pos {a b : EReal} (ha : IsPos a) (hb : IsPos b) : IsPos (Ideal.div a b) := by
  obtain ⟨y, hy, rfl⟩ := hb
  rw [Ideal.div_coe hy.ne']
  exact ha.mul ⟨1 / y, by positivity, rfl⟩

/-- The reciprocal square root of a positive real is a positive real. -/
theorem IsPos.rsqrt {a : EReal} (ha : IsPos a) : IsPos (Ideal.rsqrt a) := by
  obtain ⟨x, hx, rfl⟩ := ha
  rw [Ideal.rsqrt_coe, if_neg (not_lt.2 hx.le), if_neg hx.ne']
  exact ⟨(Real.sqrt x)⁻¹, inv_pos.2 (Real.sqrt_pos.2 hx), rfl⟩

/-! ### Vectors -/

variable {ι κ : Type}

/-- Every entry is a real number. -/
def AllReal (v : ι → EReal) : Prop := ∀ i, IsReal (v i)
/-- Every entry is a nonnegative real number. -/
def AllNonneg (v : ι → EReal) : Prop := ∀ i, IsNonneg (v i)
/-- Every entry is a positive real number. -/
def AllPos (v : ι → EReal) : Prop := ∀ i, IsPos (v i)

/-- The definition spelled out: each entry equals some real. -/
theorem allReal_def (v : ι → EReal) : AllReal v ↔ ∀ i, ∃ x : ℝ, v i = (x : EReal) := Iff.rfl
/-- The other spelling: no entry is an infinity. -/
theorem allReal_iff (v : ι → EReal) : AllReal v ↔ ∀ i, v i ≠ ⊤ ∧ v i ≠ ⊥ := forall_congr' fun _ => isReal_iff

theorem AllNonneg.allReal {v : ι → EReal} (h : AllNonneg v) : AllReal v := fun i => (h i).isReal
theorem AllPos.allNonneg {v : ι → EReal} (h : AllPos v) : AllNonneg v := fun i => (h i).isNonneg
theorem AllPos.allReal {v : ι → EReal} (h : AllPos v) : AllReal v := fun i => (h i).isReal

/-- A vector each of whose entries is an entry of an all-real vector is all real: every re-indexing. -/
theorem AllReal.comp {v : ι → EReal} (h : AllReal v) (f : κ → ι) : AllReal (fun j => v (f j)) := fun j => h (f j)
theorem AllNonneg.comp {v : ι → EReal} (h : AllNonneg v) (f : κ → ι) : AllNonneg (fun j => v (f j)) := fun j => h (f j)
theorem AllPos.comp {v : ι → EReal} (h : AllPos v) (f : κ → ι) : AllPos (fun j => v (f j)) := fun j => h (f j)

/-! ### Entrywise operations -/

section Ops
variable {s t : Shape} {φ : FTy}

theorem AllReal.addf {a b : FVec Ideal s φ} (ha : AllReal a) (hb : AllReal b) : AllReal (Idealize.ShloMosaic.addf a b) :=
  fun i => (ha i).add (hb i)
theorem AllReal.subf {a b : FVec Ideal s φ} (ha : AllReal a) (hb : AllReal b) : AllReal (Idealize.ShloMosaic.subf a b) :=
  fun i => (ha i).sub (hb i)
theorem AllReal.mulf {a b : FVec Ideal s φ} (ha : AllReal a) (hb : AllReal b) : AllReal (Idealize.ShloMosaic.mulf a b) :=
  fun i => (ha i).mul (hb i)
theorem AllReal.maximumf {a b : FVec Ideal s φ} (ha : AllReal a) (hb : AllReal b) :
    AllReal (Idealize.ShloMosaic.maximumf a b) :=
  fun i => (ha i).max (hb i)

/-- A sum of nonnegative reals, entrywise. -/
theorem AllNonneg.addf {a b : FVec Ideal s φ} (ha : AllNonneg a) (hb : AllNonneg b) :
    AllNonneg (Idealize.ShloMosaic.addf a b) :=
  fun i => (ha i).add (hb i)
/-- A nonnegative vector plus a positive one is positive: a variance plus its stabilising constant, a count plus one. -/
theorem AllNonneg.addf_pos {a b : FVec Ideal s φ} (ha : AllNonneg a) (hb : AllPos b) :
    AllPos (Idealize.ShloMosaic.addf a b) :=
  fun i => (ha i).add_pos (hb i)
/-- The entrywise square of a real vector is nonnegative. -/
theorem AllReal.mulf_self {a : FVec Ideal s φ} (ha : AllReal a) : AllNonneg (Idealize.ShloMosaic.mulf a a) :=
  fun i => (ha i).mul_self_nonneg
/-- A rectifier's output (the larger of a real and a nonnegative real, entrywise) is nonnegative. -/
theorem AllReal.maximumf_nonneg {a b : FVec Ideal s φ} (ha : AllReal a) (hb : AllNonneg b) :
    AllNonneg (Idealize.ShloMosaic.maximumf a b) :=
  fun i => (ha i).max_nonneg (hb i)

/-- The host's division by a vector of nonzero reals keeps a real vector real. -/
theorem AllReal.hostDivf {a b : FVec Ideal s φ} (ha : AllReal a) (hb : AllReal b) (hb0 : ∀ i, b i ≠ 0) :
    AllReal (Host.divf a b) :=
  fun i => (ha i).div (hb i) (hb0 i)
/-- … in particular by a vector of positive reals. -/
theorem AllReal.hostDivf_pos {a b : FVec Ideal s φ} (ha : AllReal a) (hb : AllPos b) : AllReal (Host.divf a b) :=
  ha.hostDivf hb.allReal fun i => (hb i).ne_zero
/-- A nonnegative vector divided by a positive one is nonnegative: a mean of squares. -/
theorem AllNonneg.hostDivf_pos {a b : FVec Ideal s φ} (ha : AllNonneg a) (hb : AllPos b) : AllNonneg (Host.divf a b) :=
  fun i => (ha i).div_pos (hb i)
/-- The same for the kernel's division. -/
theorem AllReal.divf {a b : FVec Ideal s φ} (ha : AllReal a) (hb : AllReal b) (hb0 : ∀ i, b i ≠ 0) :
    AllReal (Idealize.ShloMosaic.divf a b) :=
  fun i => (ha i).div (hb i) (hb0 i)

/-- The host's reciprocal square root of a vector of positive reals is a vector of positive reals. -/
theorem AllPos.hostRsqrt {a : FVec Ideal s φ} (ha : AllPos a) : AllPos (Host.rsqrt a) :=
  fun i => (ha i).rsqrt
/-- The same for the kernel's reciprocal square root. -/
theorem AllPos.rsqrt {a : FVec Ideal s φ} (ha : AllPos a) : AllPos (Idealize.ShloMosaic.rsqrt a) :=
  fun i => (ha i).rsqrt

/-- A selection between two real vectors is real, whatever the mask. -/
theorem AllReal.select {a b : FVec Ideal s φ} (c : IVec s 1) (ha : AllReal a) (hb : AllReal b) :
    AllReal (Idealize.ShloMosaic.select c a b) := fun i => by
  show IsReal (if c i = 1 then a i else b i)
  split
  · exact ha i
  · exact hb i

/-- A constant vector is real when its literal denotes a real. -/
theorem allReal_constant {b : BitVec φ.bits} (h : IsReal (Ideal.ofBits φ b)) : AllReal (constant (F := Ideal) s φ b) :=
  fun _ => h
theorem allNonneg_constant {b : BitVec φ.bits} (h : IsNonneg (Ideal.ofBits φ b)) : AllNonneg (constant (F := Ideal) s φ b) :=
  fun _ => h
theorem allPos_constant {b : BitVec φ.bits} (h : IsPos (Ideal.ofBits φ b)) : AllPos (constant (F := Ideal) s φ b) :=
  fun _ => h

end Ops

/-! ### Re-indexing operations: each entry of the result is an entry of an operand

Stated for any predicate on entries, then at the three used here. -/

section Layout
variable {s t : Shape} {α : Type} {w : Nat} (P : α → Prop)

theorem forall_broadcast (t : Shape) {x : α} (hx : P x) : ∀ j, P (broadcast t x j) := fun _ => hx
theorem forall_broadcastTo {x : s.Idx → α} (hx : ∀ k, P (x k)) (h : s.Broadcasts t) : ∀ j, P (broadcastTo t x h j) :=
  fun _ => hx _
theorem forall_broadcastInDim {x : s.Idx → α} (hx : ∀ k, P (x k)) (dims : Fin s.rank → Fin t.rank)
    (h : s.BroadcastsInDim t dims) : ∀ j, P (broadcastInDim t dims h x j) :=
  fun _ => hx _
theorem forall_shapeCast {x : s.Idx → α} (hx : ∀ k, P (x k)) (h : s.ShapeCasts t) : ∀ j, P (shapeCast t x h j) :=
  fun _ => hx _
theorem forall_extractStridedSlice {x : s.Idx → α} (hx : ∀ k, P (x k)) (off : Fin s.rank → Nat) (h : s.Slices off t) :
    ∀ j, P (extractStridedSlice t off x h j) :=
  fun _ => hx _
theorem forall_transpose {x : s.Idx → α} (hx : ∀ k, P (x k)) (perm : List (Fin s.rank)) (h : s.Transposes perm t) :
    ∀ j, P (transpose t perm x h j) :=
  fun _ => hx _
/-- A gather's entries are entries of the operand (the start indices are clamped into it). -/
theorem forall_gather {si : Shape} {x : s.Idx → α} (hx : ∀ k, P (x k)) (d : GatherDims s si t) (idx : IVec si w) :
    ∀ j, P (Host.gather d x idx j) :=
  fun _ => hx _
/-- A concatenation's entries are entries of its pieces. -/
theorem forall_concatenate (a : Fin t.rank) (xs : List ((s : Shape) × (s.Idx → α)))
    (hxs : ∀ p ∈ xs, ∀ k, P (p.2 k)) (h : Shape.Concatenates (xs.map (·.1)) t a) :
    ∀ j, P (concatenate t a xs h j) := by
  intro j
  unfold concatenate
  exact hxs _ (List.getElem_mem _) _

end Layout

section LayoutReal
variable {s t : Shape} {w : Nat}

theorem AllReal.broadcastTo {x : s.Idx → EReal} (hx : AllReal x) (h : s.Broadcasts t) :
    AllReal (Idealize.ShloMosaic.broadcastTo t x h) := forall_broadcastTo IsReal hx h
theorem AllReal.broadcastInDim {x : s.Idx → EReal} (hx : AllReal x) (dims : Fin s.rank → Fin t.rank)
    (h : s.BroadcastsInDim t dims) : AllReal (Idealize.ShloMosaic.broadcastInDim t dims h x) :=
  forall_broadcastInDim IsReal hx dims h
theorem AllReal.shapeCast {x : s.Idx → EReal} (hx : AllReal x) (h : s.ShapeCasts t) :
    AllReal (Idealize.ShloMosaic.shapeCast t x h) := forall_shapeCast IsReal hx h
theorem AllReal.extractStridedSlice {x : s.Idx → EReal} (hx : AllReal x) (off : Fin s.rank → Nat) (h : s.Slices off t) :
    AllReal (Idealize.ShloMosaic.extractStridedSlice t off x h) := forall_extractStridedSlice IsReal hx off h
theorem AllReal.gather {si : Shape} {x : s.Idx → EReal} (hx : AllReal x) (d : GatherDims s si t) (idx : IVec si w) :
    AllReal (Host.gather d x idx) := forall_gather IsReal hx d idx
theorem AllReal.concatenate (a : Fin t.rank) (xs : List ((s : Shape) × (s.Idx → EReal)))
    (hxs : ∀ p ∈ xs, AllReal p.2) (h : Shape.Concatenates (xs.map (·.1)) t a) :
    AllReal (Idealize.ShloMosaic.concatenate t a xs h) := forall_concatenate IsReal a xs hxs h
/-- The concatenation of two real vectors. -/
theorem AllReal.concatenate_pair {s₁ s₂ : Shape} (a : Fin t.rank) {x₁ : s₁.Idx → EReal} {x₂ : s₂.Idx → EReal}
    (h₁ : AllReal x₁) (h₂ : AllReal x₂) (h : Shape.Concatenates (([⟨s₁, x₁⟩, ⟨s₂, x₂⟩] : List ((s : Shape) × (s.Idx → EReal))).map (·.1)) t a) :
    AllReal (Idealize.ShloMosaic.concatenate t a [⟨s₁, x₁⟩, ⟨s₂, x₂⟩] h) :=
  AllReal.concatenate a _ (fun p hp => by
    rcases List.mem_cons.1 hp with rfl | hp
    · exact h₁
    · rcases List.mem_cons.1 hp with rfl | hp
      · exact h₂
      · exact absurd hp (List.not_mem_nil)) h

theorem AllNonneg.broadcastInDim {x : s.Idx → EReal} (hx : AllNonneg x) (dims : Fin s.rank → Fin t.rank)
    (h : s.BroadcastsInDim t dims) : AllNonneg (Idealize.ShloMosaic.broadcastInDim t dims h x) :=
  forall_broadcastInDim IsNonneg hx dims h
theorem AllPos.broadcastInDim {x : s.Idx → EReal} (hx : AllPos x) (dims : Fin s.rank → Fin t.rank)
    (h : s.BroadcastsInDim t dims) : AllPos (Idealize.ShloMosaic.broadcastInDim t dims h x) :=
  forall_broadcastInDim IsPos hx dims h
theorem AllNonneg.gather {si : Shape} {x : s.Idx → EReal} (hx : AllNonneg x) (d : GatherDims s si t) (idx : IVec si w) :
    AllNonneg (Host.gather d x idx) := forall_gather IsNonneg hx d idx
theorem AllPos.gather {si : Shape} {x : s.Idx → EReal} (hx : AllPos x) (d : GatherDims s si t) (idx : IVec si w) :
    AllPos (Host.gather d x idx) := forall_gather IsPos hx d idx

end LayoutReal

/-! ### Finite sums: the host's float reduction, scatter-add and dot product -/

section Sums
variable {s t u si su : Shape} {φ φ₁ φ₂ : FTy} {w : Nat}

/-- The host's float sum of a real vector from a real initial value is real. -/
theorem AllReal.hostReduceAdd {axes : List (Fin s.rank)} {x : FVec Ideal s φ} {init : u.Idx → Ideal φ}
    (hx : AllReal x) (hi : AllReal init) (h : s.ReducesTo axes t) (hu : 0 < u.numel) :
    AllReal (Host.reduceAdd x init h hu) := fun j => by
  show IsReal (Ideal.hostReduceAdd h x (init (Shape.Idx.first hu)) j)
  unfold Ideal.hostReduceAdd
  exact (hi _).add (IsReal.sum _ _ fun i _ => hx i)
/-- The host's float sum of a nonnegative vector from a nonnegative initial value is nonnegative. -/
theorem AllNonneg.hostReduceAdd {axes : List (Fin s.rank)} {x : FVec Ideal s φ} {init : u.Idx → Ideal φ}
    (hx : AllNonneg x) (hi : AllNonneg init) (h : s.ReducesTo axes t) (hu : 0 < u.numel) :
    AllNonneg (Host.reduceAdd x init h hu) := fun j => by
  show IsNonneg (Ideal.hostReduceAdd h x (init (Shape.Idx.first hu)) j)
  unfold Ideal.hostReduceAdd
  exact (hi _).add (IsNonneg.sum _ _ fun i _ => hx i)

/-- The host's accumulating scatter of real updates into a real operand is real: each entry is the operand's
    plus a finite sum of updates. -/
theorem AllReal.hostScatterAdd (d : ScatterDims s si su) {x : FVec Ideal s φ} {upd : FVec Ideal su φ} (idx : IVec si w)
    (hx : AllReal x) (hu : AllReal upd) : AllReal (Host.scatterAdd d x idx upd) := fun i => by
  show IsReal (Ideal.hostScatterAdd d x idx upd i)
  unfold Ideal.hostScatterAdd
  exact (hx i).add (IsReal.sum _ _ fun j _ => hu j)
/-- The host's accumulating scatter of nonnegative updates into a nonnegative operand (zeros, say) is nonnegative. -/
theorem AllNonneg.hostScatterAdd (d : ScatterDims s si su) {x : FVec Ideal s φ} {upd : FVec Ideal su φ} (idx : IVec si w)
    (hx : AllNonneg x) (hu : AllNonneg upd) : AllNonneg (Host.scatterAdd d x idx upd) := fun i => by
  show IsNonneg (Ideal.hostScatterAdd d x idx upd i)
  unfold Ideal.hostScatterAdd
  exact (hx i).add (IsNonneg.sum _ _ fun j _ => hu j)

/-- The host's dot product of two real operands is real: a finite sum of products. -/
theorem AllReal.hostDotGeneral {sl sr so : Shape} (d : DotDims sl sr so) (prec : Option ContractPrecision)
    {lhs : FVec Ideal sl φ₁} {rhs : FVec Ideal sr φ₂} (hl : AllReal lhs) (hr : AllReal rhs) :
    AllReal (Host.dotGeneral d prec lhs rhs) := fun j => by
  show IsReal (FloatOps.dotGeneral d prec .single lhs rhs j)
  rw [Ideal.dotGeneral_apply]
  exact IsReal.sum _ _ fun k _ => (hl _).mul (hr _)
/-- A matrix product into a real accumulator is real. -/
theorem AllReal.matmul {sl sr so : Shape} (d : DotDims sl sr so) (prec : Option ContractPrecision)
    {lhs : FVec Ideal sl φ₁} {rhs : FVec Ideal sr φ₂} {acc : FVec Ideal so .f32} (hl : AllReal lhs) (hr : AllReal rhs)
    (ha : AllReal acc) : AllReal (Idealize.ShloMosaic.matmul d prec lhs rhs acc) := fun j => by
  show IsReal (FloatOps.matmul d prec lhs rhs acc j)
  rw [Ideal.matmul_apply]
  exact (ha j).add (IsReal.sum _ _ fun k _ => (hl _).mul (hr _))

end Sums

/-! ### Literals -/

/-- The word of `0.0` is zero, `1.0` one. -/
theorem ofBits_one_f32 : Ideal.ofBits .f32 0x3F800000#32 = 1 := by
  simp [Ideal.ofBits, Ideal.ieee]
  norm_cast
  norm_num
theorem isReal_ofBits_zero_f32 : IsReal (Ideal.ofBits .f32 0x00000000#32) := by
  rw [Ideal.ofBits_zero_f32]; exact isReal_zero
theorem isNonneg_ofBits_zero_f32 : IsNonneg (Ideal.ofBits .f32 0x00000000#32) := by
  rw [Ideal.ofBits_zero_f32]; exact isNonneg_zero
theorem isPos_ofBits_one_f32 : IsPos (Ideal.ofBits .f32 0x3F800000#32) := by
  rw [ofBits_one_f32]; exact isPos_one

/-- The word `0x461C4000` (`1.0e4`) denotes a positive real. -/
theorem isPos_ofBits_1e4_f32 : IsPos (Ideal.ofBits .f32 0x461C4000#32) := by
  unfold IsPos
  simp [Ideal.ofBits, Ideal.ieee]
  exact ⟨10240000 * (2 ^ 10)⁻¹, by positivity, (EReal.coe_mul _ _).symm⟩
/-- The word `0x3727C5AC` (`9.99999974e-6`) denotes a positive real. -/
theorem isPos_ofBits_eps_f32 : IsPos (Ideal.ofBits .f32 0x3727C5AC#32) := by
  unfold IsPos
  simp [Ideal.ofBits, Ideal.ieee]
  exact ⟨10995116 * (2 ^ 40)⁻¹, by positivity, (EReal.coe_mul _ _).symm⟩
/-- The word `0x4A240E18` (`2687878.0`) denotes a positive real. -/
theorem isPos_ofBits_2687878_f32 : IsPos (Ideal.ofBits .f32 0x4A240E18#32) := by
  unfold IsPos
  simp [Ideal.ofBits, Ideal.ieee]
  exact ⟨10751512 * (2 ^ 2)⁻¹, by positivity, (EReal.coe_mul _ _).symm⟩

/-! ### A finiteness precondition read back -/

/-- The word of positive infinity denotes the top element. -/
theorem ofBits_inf_f32 : Ideal.ofBits .f32 0x7F800000#32 = ⊤ := by simp [Ideal.ofBits, Ideal.ieee]

/-- An extended real whose absolute value compares below positive infinity is a real number. -/
theorem isReal_of_abs_lt_inf {a : EReal}
    (h : Ideal.cmp .olt (max a (-a)) (Ideal.ofBits .f32 0x7F800000#32) = 1#1) : IsReal a := by
  rw [ofBits_inf_f32] at h
  have hlt : max a (-a) < ⊤ := by
    by_contra hn
    simp [Ideal.cmp, hn] at h
  rw [max_lt_iff] at hlt
  refine isReal_iff.2 ⟨ne_of_lt hlt.1, ?_⟩
  rintro rfl
  simp at hlt

/-- A shape of rank zero has one index. -/
instance subsingleton_idx_rank_zero : Subsingleton (⟨0, ![]⟩ : Shape).Idx := ⟨fun a b => funext fun d => d.elim0⟩

/-- One conjunct of a finiteness precondition read back: if "every entry's absolute value is below positive
    infinity", reduced by conjunction from true, came out true, the vector is all real. -/
theorem allReal_of_all_abs_lt_inf {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (j : (⟨0, ![]⟩ : Shape).Idx)
    (e : Host.reduce IntOp.andi
          (cmpf .olt (Host.absf x) (broadcastInDim s ![] hb (constant (F := Ideal) ⟨0, ![]⟩ .f32 0x7F800000#32)))
          (constantI ⟨0, ![]⟩ 1 1#1) hr hu j = 1#1) : AllReal x := fun i =>
  isReal_of_abs_lt_inf (Host.reduce_andi_all _ _ hr hu j e i)

end Idealize.ShloMosaic.FiniteOps

end
-- ==== Proof.Finite.lean ====
/-
  The precondition says every entry of x has absolute value below positive infinity: every entry is a real number.
-/
import proofs.«112700_j52905407152335_1_alg».proof.Defs
import proofs.«112700_j52905407152335_1_alg».proof.Proof.Gen.Pre_finite_inputs
import proofs.«112700_j52905407152335_1_alg».proof.Proof.LibFiniteOps
import Idealize.ShloMosaic.Lib.ReduceAll

noncomputable section

namespace Cert.Finite

open Idealize.ShloMosaic Idealize.ShloMosaic.FiniteOps Idealize.SL.Sem

theorem allReal_arg0 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    AllReal (m ((c.tc : Thread Cert.KernelIdeal.nD Cert.KernelIdeal.τ).loc Cert.KernelIdeal.main_arg0) : FVec Ideal Cert.KernelIdeal.S16x256x128x128 .f32) := by
  have h0 := congrFun (h c) ValueIdx.ix0
  dsimp only [Cert.Pre_finite_inputs.fn] at h0
  exact allReal_of_all_abs_lt_inf _ _ _ _ ValueIdx.ix0 (IntOp.andi_eq_one.1 h0).1

end Cert.Finite

end
-- ==== Proof.KernelHost.lean ====
/-
  What the second region finds in its two input arrays, and where the result array comes from. Between the two
  regions the program computes, on the host, the gate from the first region's output (the channel means) and the weight,
  lays it out per channel, and reflect-pads x; the second region's output array is the result.
-/
import proofs.«112700_j52905407152335_1_alg».proof.Proof.Gen.KernelIdeal.Frame
import proofs.«112700_j52905407152335_1_alg».proof.Proof.Spec
import Idealize.ShloMosaic.Lib.StableHlo.Run

set_option maxRecDepth 16384

noncomputable section

namespace Cert.KernelIdeal.HostValue

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The result array at the last boundary is the second region's output array after its write-backs. -/
theorem out_eq (c : Dev nD) : W4 m ρ c (Proc.devRef .tc main_v13) = (dat1 (V3 m ρ) c).arrAt 2 cfg1.N := by
  -- the result array is the second region's third array
  exact W4_arr m ρ c 2

/-- The first region finds x as launched. -/
theorem V0_arg0 (c : Dev nD) : V0 m ρ c main_arg0 = m ((c : Thread nD τ).loc main_arg0) := by
  rfl

/-- After the first region x is still as launched: x is an input array of that region, which it only reads. -/
private theorem W1_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))

/-- After the first region the weight is still as launched: it is no array of that region. -/
private theorem W1_arg1 (c : Dev nD) : W1 m ρ c (Proc.devRef .tc main_arg1) = m ((c : Thread nD τ).loc main_arg1) :=
  W1_of_ne m ρ c main_arg1 (by decide)

/-- After the first region its output array holds what its write-backs leave: the channel means. -/
private theorem W1_v0 (c : Dev nD) : W1 m ρ c (Proc.devRef .tc main_v0) = (dat0 (V0 m ρ) c).arrAt 1 cfg0.N :=
  W1_arr m ρ c 1

/-- None of the operations that compute the gate writes x. -/
private theorem W2_arg0 (c : Dev nD) : W2 m ρ c (Proc.devRef .tc main_arg0) = m ((c : Thread nD τ).loc main_arg0) :=
  (StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))).trans
    (W1_arg0 m ρ c)

/-- None of the operations that pad x writes the gate's per-channel layout. -/
private theorem W3_v11 (c : Dev nD) : V3 m ρ c main_v11 = W2 m ρ c (Proc.devRef .tc main_v11) :=
  StableHlo.after_of_forall_not_mem (b := Proc.devRef .tc main_v11) _ _ (List.forall_iff_forall_mem.mp (by
      simp only [hostOps1_1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-- The second region finds, in its first input array, x reflect-padded. -/
theorem V3_v12 (c : Dev nD) : V3 m ρ c main_v12 = Cert.Spec.padOf (m ((c : Thread nD τ).loc main_arg0)) := by
  have h2 := W2_arg0 m ρ c
  show StableHlo.after hostOps1_1 (W2 m ρ c) (Proc.devRef .tc main_v12) = _
  generalize W2 m ρ c = Wb at h2 ⊢
  -- the eight operations in order: slice, reverse, concatenate, slice, reverse, concatenate, all from x
  unfold hostOps1_1
  after_results
  simp only [StableHlo.TRef.ofBuf, StableHlo.TRef.toBuf, cast_eq]
  rw [h2]
  rfl

/-- The second region finds, in its second input array, the gate of (the first region's output, the weight) per channel. -/
theorem V3_v11 (c : Dev nD) :
    V3 m ρ c main_v11
      = Cert.Spec.tile (Cert.Spec.gate ((dat0 (V0 m ρ) c).arrAt 1 cfg0.N) (m ((c : Thread nD τ).loc main_arg1))) := by
  rw [W3_v11 m ρ c]
  have h0 := W1_v0 m ρ c
  have h1 := W1_arg1 m ρ c
  show StableHlo.after hostOps1 (W1 m ρ c) (Proc.devRef .tc main_v11) = _
  generalize W1 m ρ c = Wa at h0 h1 ⊢
  -- the operations in order: contraction, reshape, negate, exponential, 1 + ·, 1 / ·, reshape, broadcast, reshape
  unfold hostOps1
  after_results
  rw [h0, h1]
  rfl

end Cert.KernelIdeal.HostValue

end
-- ==== Proof.AvgLaw.lean ====
/-
  Eight scaled partial sums against one division: the algebra of the channel mean.

  The kernel adds, first to last from zero, eight tile sums each multiplied by the float word of 2⁻¹⁴; the reference
  divides the whole sum by the float word of 16384. The two words denote 1/16384 and 16384. Over the extended reals a
  common factor moves out of a sum only when nothing is infinite: the law is stated for real terms. Dividing by 16384
  is multiplying by 1/16384 on every extended real, and adding from zero first to last is the sum in any case.
-/
import Idealize.ShloMosaic.PureOps.Ideal
import proofs.«112700_j52905407152335_1_alg».proof.Proof.LibFiniteOps
import Mathlib.Algebra.BigOperators.Fin

noncomputable section

namespace Cert.AvgLaw

open Idealize.ShloMosaic Idealize.ShloMosaic.FiniteOps
open scoped BigOperators

/-- The kernel's scale: the word 0x38800000 denotes 1/16384. -/
theorem ofBits_scale : Ideal.ofBits .f32 0x38800000#32 = ((1 / 16384 : ℝ) : EReal) := by
  simp [Ideal.ofBits, Ideal.ieee, -EReal.coe_mul]; norm_num

/-- The reference's divisor: the word 0x46800000 denotes 16384. -/
theorem ofBits_divisor : Ideal.ofBits .f32 0x46800000#32 = ((16384 : ℝ) : EReal) := by
  simp [Ideal.ofBits, Ideal.ieee, -EReal.coe_mul]; norm_num

/-- The word of +0.0 denotes zero. -/
theorem ofBits_zero : Ideal.ofBits .f32 0x00000000#32 = 0 := by
  simp [Ideal.ofBits, Ideal.ieee]

/-- Dividing by the one word is multiplying by the other, on every extended real. -/
theorem div_divisor (s : EReal) :
    Ideal.div s (Ideal.ofBits .f32 0x46800000#32) = s * Ideal.ofBits .f32 0x38800000#32 := by
  rw [ofBits_divisor, ofBits_scale]
  exact Ideal.div_coe (by norm_num) s

/-- Eight terms added first to last from zero are their sum. -/
theorem chain8 (a : Fin 8 → EReal) :
    (((((((0 + a 0) + a 1) + a 2) + a 3) + a 4) + a 5) + a 6) + a 7 = ∑ j, a j := by
  rw [Fin.sum_univ_eight, zero_add]

/-- A real factor moves out of a sum of reals. -/
theorem sum_mul_real {ι : Type} (s : Finset ι) (a : ι → EReal) (ha : ∀ j ∈ s, IsReal (a j)) (k : EReal) (hk : IsReal k) :
    ∑ j ∈ s, a j * k = (∑ j ∈ s, a j) * k := by
  classical
  obtain ⟨kr, rfl⟩ := hk
  induction s using Finset.induction_on with
  | empty => simp
  | insert i s hi ih =>
    rw [Finset.sum_insert hi, Finset.sum_insert hi, ih (fun j hj => ha j (Finset.mem_insert_of_mem hj))]
    obtain ⟨x, hx⟩ := ha i (Finset.mem_insert_self i s)
    obtain ⟨y, hy⟩ := IsReal.sum s a (fun j hj => ha j (Finset.mem_insert_of_mem hj))
    rw [hx, hy, ← EReal.coe_mul, ← EReal.coe_mul, ← EReal.coe_add, ← EReal.coe_add, ← EReal.coe_mul]
    congr 1
    ring

/-- 128 rows are eight tiles of sixteen rows. -/
theorem sum_rows_split {M : Type} [AddCommMonoid M] (f : Fin 128 → M) :
    ∑ j : Fin 8, ∑ h : Fin 16, f ⟨16 * j.val + h.val, by have := j.isLt; have := h.isLt; omega⟩ = ∑ r : Fin 128, f r := by
  have h := (Equiv.sum_comp (finProdFinEquiv : Fin 8 × Fin 16 ≃ Fin (8 * 16)) (fun r : Fin (8 * 16) => f r)).symm
  rw [Fintype.sum_prod_type] at h
  refine Eq.trans ?_ h.symm
  refine Finset.sum_congr rfl fun j _ => Finset.sum_congr rfl fun k _ => ?_
  congr 1
  apply Fin.ext
  show 16 * j.val + k.val = k.val + 16 * j.val
  omega

/-- The mean of tiles: eight real tile sums, each scaled by 1/16384 and added first to last from zero, are their sum
    divided by 16384. -/
theorem mean_of_tiles (p : Fin 8 → EReal) (hp : ∀ j, IsReal (p j)) :
    (((((((0 + p 0 * Ideal.ofBits .f32 0x38800000#32) + p 1 * Ideal.ofBits .f32 0x38800000#32)
        + p 2 * Ideal.ofBits .f32 0x38800000#32) + p 3 * Ideal.ofBits .f32 0x38800000#32)
        + p 4 * Ideal.ofBits .f32 0x38800000#32) + p 5 * Ideal.ofBits .f32 0x38800000#32)
        + p 6 * Ideal.ofBits .f32 0x38800000#32) + p 7 * Ideal.ofBits .f32 0x38800000#32
      = Ideal.div (∑ j, p j) (Ideal.ofBits .f32 0x46800000#32) := by
  have hκ : IsReal (Ideal.ofBits .f32 0x38800000#32) := ⟨_, ofBits_scale⟩
  have h8 := chain8 (fun j => p j * Ideal.ofBits .f32 0x38800000#32)
  rw [h8, sum_mul_real Finset.univ p (fun j _ => hp j) _ hκ, div_divisor]

end Cert.AvgLaw

end
-- ==== Proof.Region0.lean ====
/-
  The first region's output array: the channel means. Its grid walks, for each half of the channels, eight tiles of
  sixteen rows; the output block is reset at the first tile and accumulates, tile by tile, the tile's sum times 2⁻¹⁴;
  it is written back after the eighth. For real entries the eight scaled partial sums add up to the plane's sum divided
  by 16384.

  The steps: what a point leaves in the output block, with and without the reset (the block's update of the zero block
  or of the running contents); that update read at an index as the running value plus the tile's sum times the scale;
  the block of the input at a point read as the array at the point's channels and rows; by induction on the point, the
  running contents as the scaled tile sums added first to last from zero; after the eighth tile that is the mean, and
  the two points that write back cover the output array. The reference's reduction over the last two axes, read at an
  index, is the plane's double sum from zero; 128 rows are eight tiles of sixteen.
-/
import proofs.«112700_j52905407152335_1_alg».proof.Proof.Gen.KernelIdeal.Frame
import proofs.«112700_j52905407152335_1_alg».proof.Proof.Spec
import proofs.«112700_j52905407152335_1_alg».proof.Proof.LibFiniteOps
import proofs.«112700_j52905407152335_1_alg».proof.Proof.AvgLaw
import Idealize.ShloMosaic.Lib.Pipeline.Value

set_option maxRecDepth 16384

noncomputable section

namespace Cert.KernelIdeal.Region0

open Idealize.ShloMosaic Idealize.ShloMosaic.TcCoe Idealize.SL.Sem
open Idealize.ShloMosaic.Pipeline (Dat)
open Cert.KernelIdeal Cert.KernelIdeal.Gen

section Pieces
variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A point that does not reset: the block's update of the running contents. -/
theorem out_B (c : Dev nD) (i : grid0.Coords) (a1 : Memref sig .tc .vmem S16x128x16x128 .f32) (h1 : a1.IsWhole)
    (a2 : Memref sig .tc .vmem S16x128 .f32) (h2 : a2.IsWhole) (hc : ¬cond0_0 i) (x : Vec F S16x128x16x128 .f32) (xo : Vec F S16x128 .f32) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  sl_unfold_words
  rw [View.canon_unit_zero hz2]
  simp only [View.readAt_eq_ld, h1.read_unread, h2.read_unread, View.ld_unit_zero (S := S16x128) hz2,
    View.ld_unit_zero (S := S16x128x16x128) hz4]

/-- A point that resets: the block's update of the zero block. -/
theorem out_A (c : Dev nD) (i : grid0.Coords) (a1 : Memref sig .tc .vmem S16x128x16x128 .f32) (h1 : a1.IsWhole)
    (a2 : Memref sig .tc .vmem S16x128 .f32) (h2 : a2.IsWhole) (hc : cond0_0 i) (x : Vec F S16x128x16x128 .f32) :
    out0_A_1 c i a1 h1 a2 h2 hc x = k0_pay2 x (k0_pay1 (F := F)) := by
  unfold out0_A_1
  rw [View.read_writes_eq_canon _ _ _ (cover0_A_1 c i a1 h1 a2 h2 hc x)]
  unfold kernelRun0_A
  dsimp only
  sl_unfold_words
  rw [View.canon_cons_unit_zero (S := S16x128) hz2, View.readCov_unit_zero (S := S16x128) _ hz2]
  simp only [View.readAt_eq_ld, h1.read_unread, View.ld_unit_zero (S := S16x128) hz2,
    View.ld_unit_zero (S := S16x128x16x128) hz4]
end Pieces

open Idealize.ShloMosaic.ValueIdx

/-- The scale the kernel multiplies every tile sum by. -/
abbrev κ : EReal := Ideal.ofBits .f32 0x38800000#32

/-- The sum of the sixteen rows of a tile, at sample n and channel j of the block. -/
abbrev tsum (x : FVec Ideal S16x128x16x128 .f32) (n : Fin 16) (j : Fin 128) : EReal :=
  ∑ h : Fin 16, ∑ w : Fin 128, x (ix4 n j h w)

theorem pay1_apply (n : Fin 16) (j : Fin 128) : k0_pay1 (F := Ideal) (ix2 n j) = 0 := Cert.AvgLaw.ofBits_zero

theorem pay2_apply (x : FVec Ideal S16x128x16x128 .f32) (xo : FVec Ideal S16x128 .f32) (n : Fin 16) (j : Fin 128) :
    k0_pay2 (F := Ideal) x xo (ix2 n j) = xo (ix2 n j) + tsum x n j * κ := by
  unfold k0_pay2
  show shapeCast S16x128 xo shapeCasts_S16x128_S16x128 (ix2 n j)
      + multiReduction (F := Ideal) .add [2] S16x128
          (multiReduction (F := Ideal) .add [3] S16x128x16 x 0x00000000#32 reduces_S16x128x16x128_S16x128x16 (.inl rfl) rfl)
          0x00000000#32 reduces_S16x128x16_S16x128 (.inl rfl) rfl (ix2 n j) * κ = _
  rw [shapeCast_self]
  congr 1; congr 1
  refine (Ideal.multiReduction_add_single _ 0x00000000#32 reduces_S16x128x16_S16x128 (.inl rfl) rfl (ix2 n j)).trans ?_
  refine Finset.sum_congr rfl fun h _ => ?_
  refine (Ideal.multiReduction_add_single x 0x00000000#32 reduces_S16x128x16x128_S16x128x16 (.inl rfl) rfl _).trans ?_
  refine Finset.sum_congr rfl fun w _ => ?_
  congr 1
  funext a
  match a with
  | ⟨0, _⟩ => rfl
  | ⟨1, _⟩ => rfl
  | ⟨2, _⟩ => rfl
  | ⟨3, _⟩ => rfl

variable (V : (c : Dev nD) → (b : Ref sig .tc) → Buf (Elt Ideal) ((c : Thread nD τ).loc b))

/-- The input array, and the block of it the first window holds at a point, at their literal shapes. -/
abbrev xarr (c : Dev nD) : FVec Ideal S16x256x128x128 .f32 := V c main_arg0
abbrev xblk (c : Dev nD) (t : Fin cfg0.N) : FVec Ideal S16x128x16x128 .f32 := iblk0 V c 0 t

theorem lt16 (t : Fin cfg0.N) : t.val < 16 := lt_of_lt_of_eq t.isLt (show cfg0.N = 16 from N_0)

/-- Point t works on the channels 128 (t / 8) + j and on the rows 16 (t mod 8) + h. -/
def chOf (t : Fin cfg0.N) (j : Fin 128) : Fin 256 := ⟨128 * (t.val / 8) + j.val, by have := lt16 t; have := j.isLt; omega⟩
def rowOf (k : Fin 8) (h : Fin 16) : Fin 128 := ⟨16 * k.val + h.val, by have := k.isLt; have := h.isLt; omega⟩
def tileOf (t : Fin cfg0.N) : Fin 8 := ⟨t.val % 8, Nat.mod_lt _ (by decide)⟩

/-- The block indices of the two windows, decided over the grid. -/
theorem idx0 : ∀ t : Fin cfg0.N, win0_0.index t (0 : Fin 4) = 0 ∧ win0_0.index t (1 : Fin 4) = t.val / 8
    ∧ win0_0.index t (2 : Fin 4) = t.val % 8 ∧ win0_0.index t (3 : Fin 4) = 0 :=
  (by decide +kernel : ∀ t : Fin grid0.N, win0_0.index t (0 : Fin 4) = 0 ∧ win0_0.index t (1 : Fin 4) = t.val / 8
    ∧ win0_0.index t (2 : Fin 4) = t.val % 8 ∧ win0_0.index t (3 : Fin 4) = 0)
theorem idx1 : ∀ t : Fin cfg0.N, win0_1.index t (0 : Fin 2) = 0 ∧ win0_1.index t (1 : Fin 2) = t.val / 8 :=
  (by decide +kernel : ∀ t : Fin grid0.N, win0_1.index t (0 : Fin 2) = 0 ∧ win0_1.index t (1 : Fin 2) = t.val / 8)

/-- The block at a point, read at an index, is the array at the point's channels and rows. -/
theorem xblk_apply (c : Dev nD) (t : Fin cfg0.N) (n : Fin 16) (j : Fin 128) (h : Fin 16) (w : Fin 128) :
    xblk V c t (ix4 n j h w) = xarr V c (ix4 n (chOf t j) (rowOf (tileOf t) h) w) := by
  obtain ⟨e0, e1, e2, e3⟩ := idx0 t
  unfold xblk iblk0
  rw [View.read_apply]
  show V c main_arg0 _ = V c main_arg0 _
  congr 1
  funext a
  apply Fin.ext
  match a with
  | ⟨0, _⟩ => show win0_0.index t (0 : Fin 4) * 16 + 1 * n.val = n.val; omega
  | ⟨1, _⟩ => show win0_0.index t (1 : Fin 4) * 128 + 1 * j.val = 128 * (t.val / 8) + j.val; omega
  | ⟨2, _⟩ => show win0_0.index t (2 : Fin 4) * 16 + 1 * h.val = 16 * (t.val % 8) + h.val; omega
  | ⟨3, _⟩ => show win0_0.index t (3 : Fin 4) * 128 + 1 * w.val = w.val; omega

/-- The sum of tile k (sixteen rows) of the plane of sample b and channel ch. -/
def tileSum (c : Dev nD) (b : Fin 16) (ch : Fin 256) (k : Fin 8) : EReal :=
  ∑ h : Fin 16, ∑ w : Fin 128, xarr V c (ix4 b ch (rowOf k h) w)

/-- The block's tile sum at a point is that tile's sum of the array. -/
theorem tsum_xblk (c : Dev nD) (t : Fin cfg0.N) (b : Fin 16) (j : Fin 128) :
    tsum (xblk V c t) b j = tileSum V c b (chOf t j) (tileOf t) :=
  Finset.sum_congr rfl fun h _ => Finset.sum_congr rfl fun w _ => xblk_apply V c t b j h w

/-- Scaled terms added first to last from zero: after term k. -/
def runTo (p : Fin 8 → EReal) : ℕ → EReal
  | 0 => 0 + p ⟨0 % 8, Nat.mod_lt _ (by decide)⟩ * κ
  | k + 1 => runTo p k + p ⟨(k + 1) % 8, Nat.mod_lt _ (by decide)⟩ * κ

theorem runTo_seven (p : Fin 8 → EReal) :
    runTo p 7 = (((((((0 + p 0 * κ) + p 1 * κ) + p 2 * κ) + p 3 * κ) + p 4 * κ) + p 5 * κ) + p 6 * κ) + p 7 * κ := rfl

/-- THE RUNNING CONTENTS. After point n the output block holds, at sample b and channel j of the block, the scaled
    tile sums of the point's channel added first to last from zero, up to the point's tile. -/
theorem outsAt_eq (c : Dev nD) : ∀ (n : ℕ) (hn : n < cfg0.N) (b : Fin 16) (j : Fin 128),
    outsAt0 V c n hn (ix2 b j) = runTo (tileSum V c b (chOf ⟨n, hn⟩ j)) (n % 8)
  | 0, hn, b, j => by
    refine (congrFun ((outsAt0_A V c ⟨0, hn⟩ rfl).trans
      (out_A (F := Ideal) c (grid0.coords ⟨0, hn⟩) (ms0_0 ⟨0, hn⟩) (hs0_0 ⟨0, hn⟩) (ms0_1 ⟨0, hn⟩) (hs0_1 ⟨0, hn⟩)
        ((hcond0_0 ⟨0, hn⟩).mpr (Nat.zero_mod _)) (iblk0 V c 0 ⟨0, hn⟩))) (ix2 b j)).trans ?_
    refine (pay2_apply (xblk V c ⟨0, hn⟩) (k0_pay1 (F := Ideal)) b j).trans ?_
    rw [pay1_apply, tsum_xblk]
    rfl
  | n + 1, hn, b, j => by
    have hN : n + 1 < 16 := lt_of_lt_of_eq hn (show cfg0.N = 16 from N_0)
    by_cases h0 : (n + 1) % 8 = 0
    · refine (congrFun ((outsAt0_A V c ⟨n + 1, hn⟩ h0).trans
        (out_A (F := Ideal) c (grid0.coords ⟨n + 1, hn⟩) (ms0_0 ⟨n + 1, hn⟩) (hs0_0 ⟨n + 1, hn⟩) (ms0_1 ⟨n + 1, hn⟩) (hs0_1 ⟨n + 1, hn⟩)
          ((hcond0_0 ⟨n + 1, hn⟩).mpr h0) (iblk0 V c 0 ⟨n + 1, hn⟩))) (ix2 b j)).trans ?_
      refine (pay2_apply (xblk V c ⟨n + 1, hn⟩) (k0_pay1 (F := Ideal)) b j).trans ?_
      rw [pay1_apply, tsum_xblk, h0]
      show 0 + tileSum V c b _ (tileOf ⟨n + 1, hn⟩) * κ = 0 + tileSum V c b _ ⟨0 % 8, _⟩ * κ
      congr 3
      exact Fin.ext h0
    · refine (congrFun ((outsAt0_B V c ⟨n + 1, hn⟩ h0).trans
        (out_B (F := Ideal) c (grid0.coords ⟨n + 1, hn⟩) (ms0_0 ⟨n + 1, hn⟩) (hs0_0 ⟨n + 1, hn⟩) (ms0_1 ⟨n + 1, hn⟩) (hs0_1 ⟨n + 1, hn⟩)
          (fun h => h0 ((hcond0_0 ⟨n + 1, hn⟩).mp h)) (iblk0 V c 0 ⟨n + 1, hn⟩)
          (outsAt0 V c n (Nat.lt_of_succ_lt hn)))) (ix2 b j)).trans ?_
      refine (pay2_apply (xblk V c ⟨n + 1, hn⟩) (outsAt0 V c n (Nat.lt_of_succ_lt hn)) b j).trans ?_
      rw [outsAt_eq c n (Nat.lt_of_succ_lt hn) b j, tsum_xblk]
      have hch : chOf ⟨n, Nat.lt_of_succ_lt hn⟩ j = chOf ⟨n + 1, hn⟩ j := Fin.ext (by show 128 * (n / 8) + j.val = 128 * ((n + 1) / 8) + j.val; omega)
      have hk : (n + 1) % 8 = n % 8 + 1 := by omega
      rw [hch, hk]
      show _ + tileSum V c b _ (tileOf ⟨n + 1, hn⟩) * κ = _ + tileSum V c b _ ⟨(n % 8 + 1) % 8, _⟩ * κ
      congr 3
      exact Fin.ext (by show (n + 1) % 8 = (n % 8 + 1) % 8; omega)

/-- The word the reference divides by. -/
abbrev δ : EReal := Ideal.ofBits .f32 0x46800000#32

/-- What the output array ends holding at sample b, channel ch: the eight tile sums' sum, divided by 16384. -/
def meanAt (c : Dev nD) (b : Fin 16) (ch : Fin 256) : EReal := Ideal.div (∑ k : Fin 8, tileSum V c b ch k) δ

abbrev meanArr (c : Dev nD) : Buf (Elt Ideal) ((c : Thread nD τ).loc main_v0) := fun i => meanAt V c (i 0) (i 1)

theorem isReal_tileSum (c : Dev nD) (hx : FiniteOps.AllReal (xarr V c)) (b : Fin 16) (ch : Fin 256) (k : Fin 8) :
    FiniteOps.IsReal (tileSum V c b ch k) :=
  FiniteOps.IsReal.sum _ _ fun h _ => FiniteOps.IsReal.sum _ _ fun w _ => hx _

/-- After the eighth tile of a channel half, the block holds the means of its channels. -/
theorem outs_final (c : Dev nD) (hx : FiniteOps.AllReal (xarr V c)) (t : Fin cfg0.N) (h7 : t.val % 8 = 7) (b : Fin 16) (j : Fin 128) :
    outsAt0 V c t.val t.isLt (ix2 b j) = meanAt V c b (chOf t j) := by
  rw [outsAt_eq V c t.val t.isLt b j, h7, runTo_seven]
  exact Cert.AvgLaw.mean_of_tiles (tileSum V c b (chOf t j)) (isReal_tileSum V c hx b (chOf t j))

/-- What a flushing point writes back is its block of the means. -/
theorem flushed_eq (c : Dev nD) (hx : FiniteOps.AllReal (xarr V c)) (t : Fin cfg0.N) (hf : (cfg0.win 1).flush t = true) :
    (dat0 V c).flushed 1 t = ((cfg0.win 1).blk t).view.read (Elt Ideal) (meanArr V c) := by
  have h7 : t.val % 8 = 7 := (flush0_1 t).mp hf
  obtain ⟨e0, e1⟩ := idx1 t
  show (cfg0.win 1).cut (grid0.coords t) ((dat0 V c).after 1 t) = _
  rw [after0_1]
  funext y
  have hy0 : (y 0).val < 16 := (y 0).isLt
  have hy1 : (y 1).val < 128 := (y 1).isLt
  rw [View.read_apply]
  refine Eq.trans (?_ : _ = outsAt0 V c t.val t.isLt (ix2 (⟨(y 0).val, hy0⟩ : Fin 16) (⟨(y 1).val, hy1⟩ : Fin 128)))
    ((outs_final V c hx t h7 _ _).trans ?_)
  · exact congrArg (outsAt0 V c t.val t.isLt) (funext fun a => match a with | ⟨0, _⟩ => rfl | ⟨1, _⟩ => rfl)
  · show meanAt V c _ _ = meanAt V c _ _
    congr 1
    · apply Fin.ext
      show (y 0).val = win0_1.index t (0 : Fin 2) * 16 + 1 * (y 0).val
      omega
    · apply Fin.ext
      show 128 * (t.val / 8) + (y 1).val = win0_1.index t (1 : Fin 2) * 128 + 1 * (y 1).val
      omega

/-- Every index of the output array lies in the block of the flushing point of its channel half. -/
theorem cover_out (i : S16x256.Idx) : ∃ t : Fin cfg0.N, (cfg0.win 1).flush t = true ∧ i ∈ ((cfg0.win 1).blk t).view.set := by
  have h0 : (i 0).val < 16 := (i 0).isLt
  have h1 : (i 1).val < 256 := (i 1).isLt
  have hN : 8 * ((i 1).val / 128) + 7 < cfg0.N := by rw [show cfg0.N = 16 from N_0]; omega
  refine ⟨⟨8 * ((i 1).val / 128) + 7, hN⟩, (flush0_1 _).mpr (by show (8 * ((i 1).val / 128) + 7) % 8 = 7; omega), ?_⟩
  obtain ⟨e0, e1⟩ := idx1 ⟨8 * ((i 1).val / 128) + 7, hN⟩
  have e1' : win0_1.index ⟨8 * ((i 1).val / 128) + 7, hN⟩ (1 : Fin 2) = (i 1).val / 128 := by
    rw [e1]; show (8 * ((i 1).val / 128) + 7) / 8 = (i 1).val / 128; omega
  show i ∈ ((View.whole main_v0).slice (win0_1.rect ⟨8 * ((i 1).val / 128) + 7, hN⟩)).set
  rw [View.set_slice_whole, Rect.mem_set_unit]
  intro a
  match a with
  | ⟨0, _⟩ =>
    show win0_1.index ⟨8 * ((i 1).val / 128) + 7, hN⟩ (0 : Fin 2) * 16 ≤ (i 0).val
      ∧ (i 0).val < win0_1.index ⟨8 * ((i 1).val / 128) + 7, hN⟩ (0 : Fin 2) * 16 + 16
    omega
  | ⟨1, _⟩ =>
    show win0_1.index ⟨8 * ((i 1).val / 128) + 7, hN⟩ (1 : Fin 2) * 128 ≤ (i 1).val
      ∧ (i 1).val < win0_1.index ⟨8 * ((i 1).val / 128) + 7, hN⟩ (1 : Fin 2) * 128 + 128
    omega

/-- So the output array ends holding the means, tile sums first. -/
theorem final_out (c : Dev nD) (hx : FiniteOps.AllReal (xarr V c)) : (dat0 V c).arrAt 1 cfg0.N = meanArr V c :=
  (dat0 V c).arrAt_eq_of_cover 1 (meanArr V c) (flushed_eq V c hx) cover_out

/-! ## The reference's mean, read at an index -/

/-- The plane of sample n and channel ch: the indices the reference's reduction sums at (n, ch). -/
def planeEmb (n : Fin 16) (ch : Fin 256) : Fin 128 × Fin 128 ↪ Cert.Spec.SX.Idx :=
  ⟨fun p => ix4 n ch p.1 p.2, fun p q h => Prod.ext (congrFun h (2 : Fin 4)) (congrFun h (3 : Fin 4))⟩

theorem drop_plane (h : Cert.Spec.SX.ReducesTo [2, 3] Cert.Spec.SA) (n : Fin 16) (ch : Fin 256) (r w : Fin 128) :
    h.drop (ix4 n ch r w) = ix2 n ch :=
  funext fun b => match b with
    | ⟨0, _⟩ => rfl
    | ⟨1, _⟩ => rfl

theorem eq_plane (h : Cert.Spec.SX.ReducesTo [2, 3] Cert.Spec.SA) (i : Cert.Spec.SX.Idx) (n : Fin 16) (ch : Fin 256)
    (hd : h.drop i = ix2 n ch) : i = ix4 n ch (i 2) (i 3) := by
  subst_vars
  funext a
  match a with
  | ⟨0, _⟩ => exact congrFun hd (0 : Fin 2)
  | ⟨1, _⟩ => exact congrFun hd (1 : Fin 2)
  | ⟨2, _⟩ => rfl
  | ⟨3, _⟩ => rfl

theorem filter_plane (h : Cert.Spec.SX.ReducesTo [2, 3] Cert.Spec.SA) (n : Fin 16) (ch : Fin 256) :
    Finset.univ.filter (fun i : Cert.Spec.SX.Idx => h.drop i = ix2 n ch) = Finset.univ.map (planeEmb n ch) := by
  ext i
  simp only [Finset.mem_filter, Finset.mem_univ, true_and, Finset.mem_map, planeEmb, Function.Embedding.coeFn_mk]
  exact ⟨fun hd => ⟨(i 2, i 3), (eq_plane h i n ch hd).symm⟩, fun ⟨p, hp⟩ => hp ▸ drop_plane h n ch p.1 p.2⟩

/-- The reference's mean at (n, ch): the plane's sum from zero, divided by 16384. -/
theorem ref_apply (X : FVec Ideal Cert.Spec.SX .f32) (n : Fin 16) (ch : Fin 256) :
    Cert.Spec.avgR (F := Ideal) X (ix2 n ch) = Ideal.div (∑ r : Fin 128, ∑ w : Fin 128, X (ix4 n ch r w)) δ := by
  show Ideal.div (Ideal.hostReduceAdd (by decide : Cert.Spec.SX.ReducesTo [2, 3] Cert.Spec.SA) X (Ideal.ofBits .f32 0x00000000#32) (ix2 n ch)) δ = _
  unfold Ideal.hostReduceAdd
  rw [filter_plane, Finset.sum_map, Fintype.sum_prod_type, Cert.AvgLaw.ofBits_zero, zero_add]
  rfl

/-! ## The two sides meet -/

theorem value (c : Dev nD) (hx : FiniteOps.AllReal (V c main_arg0 : FVec Ideal S16x256x128x128 .f32)) :
    (dat0 (F := Ideal) V c).arrAt 1 cfg0.N = Cert.Spec.avgR (F := Ideal) (V c main_arg0) := by
  refine (final_out V c hx).trans ?_
  funext i
  obtain ⟨n, ch, rfl⟩ : ∃ (n : Fin 16) (ch : Fin 256), i = ix2 n ch := ⟨i 0, i 1, eq_ix2 i⟩
  refine Eq.trans ?_ (ref_apply (xarr V c) n ch).symm
  show Ideal.div (∑ k : Fin 8, tileSum V c n ch k) δ = _
  congr 1
  exact Cert.AvgLaw.sum_rows_split (fun r => ∑ w : Fin 128, xarr V c (ix4 n ch r w))

end Cert.KernelIdeal.Region0

end
-- ==== Proof.LibTrailingUnitAxes.lean ====
/-
  Two trailing unit axes added to or dropped from a vector by a shape cast, read at an index.

  A vector of length a and an a × 1 × 1 array hold the same a numbers in the same order: entry (i, 0, 0) of the one is
  entry i of the other. (The library has the casts of a LEADING unit axis; a per-batch scalar kept as a 1 × 1 block of an
  a × 1 × 1 array meets the trailing ones.) Stated over a literal-free extent `a`, with indices built by coordinates.
-/
import Idealize.ShloMosaic.Lib.ValueIdx
import Idealize.ShloMosaic.Lib.Pipeline.Value

noncomputable section

namespace Idealize.ShloMosaic.TrailingUnitAxes

open Idealize.ShloMosaic Idealize.ShloMosaic.ValueIdx

/-- An `[a]` array cast to `[a, 1, 1]` reads, at `(i, 0, 0)`, the operand at `i`. -/
theorem shapeCast_a_a11_apply {α : Type} {a : ℕ} (x : (⟨1, ![a]⟩ : Shape).Idx → α)
    (h : (⟨1, ![a]⟩ : Shape).ShapeCasts ⟨3, ![a, 1, 1]⟩) (i : Fin a) :
    shapeCast ⟨3, ![a, 1, 1]⟩ x h (ix3 i (0 : Fin 1) (0 : Fin 1)) = x (ix1 i) :=
  shapeCast_apply x h _ _ (by
    rw [Shape.rowMajor_val_three, Shape.rowMajor_val_one]
    show i.val = (i.val * 1 + 0) * 1 + 0
    omega)

/-- An `[a, 1, 1]` array cast to `[a]` reads, at `i`, the operand at `(i, 0, 0)`. -/
theorem shapeCast_a11_a_apply {α : Type} {a : ℕ} (x : (⟨3, ![a, 1, 1]⟩ : Shape).Idx → α)
    (h : (⟨3, ![a, 1, 1]⟩ : Shape).ShapeCasts ⟨1, ![a]⟩) (i : Fin a) :
    shapeCast ⟨1, ![a]⟩ x h (ix1 i) = x (ix3 i (0 : Fin 1) (0 : Fin 1)) :=
  shapeCast_apply x h _ _ (by
    rw [Shape.rowMajor_val_three, Shape.rowMajor_val_one]
    show (i.val * 1 + 0) * 1 + 0 = i.val
    omega)

end Idealize.ShloMosaic.TrailingUnitAxes

end
-- ==== Proof.Region1.lean ====
/-
  The second region's output array: the five taps. Each grid point (n, q) reads sample n's channels 64q … 64q+63 of the
  padded input (all 128 rows, all 136 columns) and the same channels' five filter entries, and writes the block of the
  output at the same sample and channels: at row h and column w the five products filter(k) · padded(w + 2k), added first
  to last. The blocks tile the output array.
-/
import proofs.«112700_j52905407152335_1_alg».proof.Proof.Gen.KernelIdeal.Frame
import proofs.«112700_j52905407152335_1_alg».proof.Proof.Spec
import proofs.«112700_j52905407152335_1_alg».proof.Proof.LibTrailingUnitAxes
import Idealize.ShloMosaic.Lib.Pipeline.Value

set_option maxRecDepth 16384

noncomputable section

namespace Cert.KernelIdeal.Region1

open Idealize.ShloMosaic Idealize.ShloMosaic.TcCoe Idealize.SL.Sem
open Idealize.ShloMosaic.Pipeline (Dat)
open Idealize.ShloMosaic.ValueIdx Idealize.ShloMosaic.TrailingUnitAxes
open Cert.KernelIdeal Cert.KernelIdeal.Gen

variable (V : (c : Dev nD) → (b : Ref sig .tc) → Buf (Elt Ideal) ((c : Thread nD τ).loc b))

/-! ## The body's stored block, entry by entry -/

/-- The four zero offsets, however they are spelt. -/
theorem zeroOffsets : (![0, 0, 0, 0] : Fin 4 → Nat) = fun _ => 0 := funext fun a => by fin_cases a <;> rfl

/-- One filter column of the block, [1, 64, 1], spread over the [64, 128, 128] planes: channel j's entry everywhere on
    plane j. -/
theorem spread_apply (v : Vec Ideal S1x64x1 .f32) (j : Fin 64) (h w : Fin 128) :
    broadcastTo S64x128x128 (shapeCast S64x1x1 (shapeCast S64 v shapeCasts_S1x64x1_S64) shapeCasts_S64_S64x1x1)
        broadcasts_S64x1x1_S64x128x128 (ix3 j h w)
      = v (ix3 (0 : Fin 1) j (0 : Fin 1)) := by
  refine (broadcastTo_apply _ broadcasts_S64x1x1_S64x128x128 (ix3 j h w) (ix3 j (0 : Fin 1) (0 : Fin 1)) (fun a => ?_)).trans ?_
  · match a with
    | ⟨0, _⟩ => rfl
    | ⟨1, _⟩ => rfl
    | ⟨2, _⟩ => rfl
  refine (shapeCast_a_a11_apply _ shapeCasts_S64_S64x1x1 j).trans ?_
  refine shapeCast_apply v shapeCasts_S1x64x1_S64 (ix1 j) (ix3 (0 : Fin 1) j (0 : Fin 1)) ?_
  rw [Shape.rowMajor_val_three, Shape.rowMajor_val_one]
  show (0 * 64 + j.val) * 1 + 0 = j.val
  omega

/-- The block's leading unit axis dropped: plane j of [64, 128, 128] is plane (0, j) of [1, 64, 128, 128]. -/
theorem planes_apply (y : Vec Ideal S1x64x128x128 .f32) (j : Fin 64) (h w : Fin 128) :
    shapeCast S64x128x128 y shapeCasts_S1x64x128x128_S64x128x128 (ix3 j h w) = y (ix4 (0 : Fin 1) j h w) := by
  refine shapeCast_apply y shapeCasts_S1x64x128x128_S64x128x128 (ix3 j h w) (ix4 (0 : Fin 1) j h w) ?_
  rw [Shape.rowMajor_val_three, Shape.rowMajor_val_four]
  show ((0 * 64 + j.val) * 128 + h.val) * 128 + w.val = (j.val * 128 + h.val) * 128 + w.val
  omega

/-- … and put back. -/
theorem block_apply (z : FVec Ideal S64x128x128 .f32) (j : Fin 64) (h w : Fin 128) :
    shapeCast S1x64x128x128 z shapeCasts_S64x128x128_S1x64x128x128 (ix4 (0 : Fin 1) j h w) = z (ix3 j h w) := by
  refine shapeCast_apply z shapeCasts_S64x128x128_S1x64x128x128 (ix4 (0 : Fin 1) j h w) (ix3 j h w) ?_
  rw [Shape.rowMajor_val_three, Shape.rowMajor_val_four]
  show (j.val * 128 + h.val) * 128 + w.val = ((0 * 64 + j.val) * 128 + h.val) * 128 + w.val
  omega

/-- A load of the padded block's [1, 64, 128, 128] rectangle at column offset o reads column w + o. -/
theorem ld_columns (x0 : Vec Ideal S1x64x128x136 .f32) (o : Nat) (ho : o ≤ 8)
    (inb : ∀ a, (![0, 0, 0, o] : Fin 4 → Nat) a + S1x64x128x128.size a ≤ S1x64x128x136.size a)
    (j : Fin 64) (h w : Fin 128) :
    View.ld x0 (Rect.unit (s := S1x64x128x136) ![0, 0, 0, o] S1x64x128x128.size inb) (ix4 (0 : Fin 1) j h w)
      = x0 (ix4 (0 : Fin 1) j h (Cert.Spec.shift w o ho)) := by
  show x0 _ = x0 _
  refine congrArg x0 (funext fun a => Fin.ext ?_)
  match a with
  | ⟨0, _⟩ => show 0 + 1 * 0 = 0; omega
  | ⟨1, _⟩ => show 0 + 1 * j.val = j.val; omega
  | ⟨2, _⟩ => show 0 + 1 * h.val = h.val; omega
  | ⟨3, _⟩ => show o + 1 * w.val = w.val + o; omega

/-- A load of the filter block's [1, 64, 1] rectangle at entry k reads entry k of every channel. -/
theorem ld_entry (x1 : Vec Ideal S1x64x5 .f32) (k : Nat) (hk : k < 5)
    (inb : ∀ a, (![0, 0, k] : Fin 3 → Nat) a + S1x64x1.size a ≤ S1x64x5.size a) (j : Fin 64) :
    View.ld x1 (Rect.unit (s := S1x64x5) ![0, 0, k] S1x64x1.size inb) (ix3 (0 : Fin 1) j (0 : Fin 1))
      = x1 (ix3 (0 : Fin 1) j (⟨k, hk⟩ : Fin 5)) := by
  show x1 _ = x1 _
  refine congrArg x1 (funext fun a => Fin.ext ?_)
  match a with
  | ⟨0, _⟩ => show 0 + 1 * 0 = 0; omega
  | ⟨1, _⟩ => show 0 + 1 * j.val = j.val; omega
  | ⟨2, _⟩ => show k + 1 * 0 = k; omega

/-- A sum of two arrays at an index, from its two entries. -/
theorem add_at (a b : FVec Ideal S64x128x128 .f32) (i : S64x128x128.Idx) {p q : EReal} (ha : a i = p) (hb : b i = q) :
    addf a b i = p + q := by
  rw [addf_apply, ha, hb]

/-- A product of two arrays at an index, from its two entries. -/
theorem mul_at (a b : FVec Ideal S64x128x128 .f32) (i : S64x128x128.Idx) {p q : EReal} (ha : a i = p) (hb : b i = q) :
    mulf a b i = p * q := by
  rw [mulf_apply, ha, hb]

/-- One tap of the body: filter entry k of channel j times column w + o of row h of the padded plane j. -/
theorem tap_apply (x0 : Vec Ideal S1x64x128x136 .f32) (x1 : Vec Ideal S1x64x5 .f32) (k : Nat) (hk : k < 5) (o : Nat) (ho : o ≤ 8)
    (inb1 : ∀ a, (![0, 0, k] : Fin 3 → Nat) a + S1x64x1.size a ≤ S1x64x5.size a)
    (inb0 : ∀ a, (![0, 0, 0, o] : Fin 4 → Nat) a + S1x64x128x128.size a ≤ S1x64x128x136.size a)
    (j : Fin 64) (h w : Fin 128) :
    mulf (F := Ideal) (s := S64x128x128) (φ := .f32)
        (broadcastTo S64x128x128
          (shapeCast S64x1x1
            (shapeCast S64 (View.ld x1 (Rect.unit (s := S1x64x5) ![0, 0, k] S1x64x1.size inb1)) shapeCasts_S1x64x1_S64)
            shapeCasts_S64_S64x1x1)
          broadcasts_S64x1x1_S64x128x128)
        (shapeCast S64x128x128 (View.ld x0 (Rect.unit (s := S1x64x128x136) ![0, 0, 0, o] S1x64x128x128.size inb0))
          shapeCasts_S1x64x128x128_S64x128x128)
        (ix3 j h w)
      = x1 (ix3 (0 : Fin 1) j (⟨k, hk⟩ : Fin 5)) * x0 (ix4 (0 : Fin 1) j h (Cert.Spec.shift w o ho)) :=
  mul_at _ _ _ ((spread_apply _ j h w).trans (ld_entry x1 k hk inb1 j))
    ((planes_apply _ j h w).trans (ld_columns x0 o ho inb0 j h w))

/-- THE STORED BLOCK at channel j, row h, column w: the five taps, added first to last. -/
theorem stored_apply (x0 : Vec Ideal S1x64x128x136 .f32) (x1 : Vec Ideal S1x64x5 .f32) (j : Fin 64) (h w : Fin 128) :
    out1_2 x0 x1 (ix4 (0 : Fin 1) j h w)
      = (((x1 (ix3 (0 : Fin 1) j (⟨0, by omega⟩ : Fin 5)) * x0 (ix4 (0 : Fin 1) j h (Cert.Spec.shift w 0 (by omega)))
            + x1 (ix3 (0 : Fin 1) j (⟨1, by omega⟩ : Fin 5)) * x0 (ix4 (0 : Fin 1) j h (Cert.Spec.shift w 2 (by omega))))
          + x1 (ix3 (0 : Fin 1) j (⟨2, by omega⟩ : Fin 5)) * x0 (ix4 (0 : Fin 1) j h (Cert.Spec.shift w 4 (by omega))))
        + x1 (ix3 (0 : Fin 1) j (⟨3, by omega⟩ : Fin 5)) * x0 (ix4 (0 : Fin 1) j h (Cert.Spec.shift w 6 (by omega))))
      + x1 (ix3 (0 : Fin 1) j (⟨4, by omega⟩ : Fin 5)) * x0 (ix4 (0 : Fin 1) j h (Cert.Spec.shift w 8 (by omega))) := by
  unfold out1_2
  rw [View.canon_unit_zero zeroOffsets]
  unfold k1_pay1 k1_pay2 k1_pay3
  refine (block_apply _ j h w).trans ?_
  refine add_at _ _ _ (add_at _ _ _ (add_at _ _ _ (add_at _ _ _ ?_ ?_) ?_) ?_) ?_
  · exact tap_apply x0 x1 0 (by omega) 0 (by omega) _ _ j h w
  · exact tap_apply x0 x1 1 (by omega) 2 (by omega) _ _ j h w
  · exact tap_apply x0 x1 2 (by omega) 4 (by omega) _ _ j h w
  · exact tap_apply x0 x1 3 (by omega) 6 (by omega) _ _ j h w
  · exact tap_apply x0 x1 4 (by omega) 8 (by omega) _ _ j h w

/-! ## The block against the five taps of the whole arrays -/

/-- Channel j of the q-th group of 64. -/
abbrev chan (q : Fin 4) (j : Fin 64) : Fin 256 := ⟨q.val * 64 + j.val, by have := q.isLt; have := j.isLt; omega⟩

/-- A block whose inputs are sample n's channels 64q … 64q + 63 of the padded array and of the filter holds, at channel j,
    row h, column w, the five taps of the whole arrays at sample n, channel 64q + j, row h, column w. -/
theorem block_taps (x0 : Vec Ideal S1x64x128x136 .f32) (x1 : Vec Ideal S1x64x5 .f32)
    (xp : FVec Ideal Cert.Spec.SXP .f32) (g : FVec Ideal Cert.Spec.SF .f32) (n : Fin 16) (q : Fin 4)
    (hx0 : ∀ (j : Fin 64) (h : Fin 128) (w : Fin 136), x0 (ix4 (0 : Fin 1) j h w) = xp (ix4 n (chan q j) h w))
    (hx1 : ∀ (j : Fin 64) (k : Fin 5), x1 (ix3 (0 : Fin 1) j k) = g (ix3 n (chan q j) k))
    (j : Fin 64) (h w : Fin 128) :
    out1_2 x0 x1 (ix4 (0 : Fin 1) j h w) = Cert.Spec.conv xp g (ix4 n (chan q j) h w) := by
  rw [stored_apply]
  simp only [hx0, hx1]
  rfl

/-- The same with the block's index and the array's index given by their coordinates' values. -/
theorem block_taps_at (x0 : Vec Ideal S1x64x128x136 .f32) (x1 : Vec Ideal S1x64x5 .f32)
    (xp : FVec Ideal Cert.Spec.SXP .f32) (g : FVec Ideal Cert.Spec.SF .f32) (n : Fin 16) (q : Fin 4)
    (hx0 : ∀ (j : Fin 64) (h : Fin 128) (w : Fin 136), x0 (ix4 (0 : Fin 1) j h w) = xp (ix4 n (chan q j) h w))
    (hx1 : ∀ (j : Fin 64) (k : Fin 5), x1 (ix3 (0 : Fin 1) j k) = g (ix3 n (chan q j) k))
    (y : S1x64x128x128.Idx) (i : Cert.Spec.SX.Idx)
    (h0 : (i 0).val = n.val) (h1 : (i 1).val = q.val * 64 + (y 1).val) (h2 : (i 2).val = (y 2).val) (h3 : (i 3).val = (y 3).val) :
    out1_2 x0 x1 y = Cert.Spec.conv xp g i := by
  obtain ⟨z, j, h, w, rfl⟩ : ∃ (z : Fin 1) (j : Fin 64) (h w : Fin 128), y = ix4 z j h w := ⟨y 0, y 1, y 2, y 3, eq_ix4 y⟩
  obtain rfl : z = 0 := Subsingleton.elim _ _
  obtain rfl : i = ix4 n (chan q j) h w := funext fun a => Fin.ext (by
    match a with
    | ⟨0, _⟩ => exact h0
    | ⟨1, _⟩ => exact h1
    | ⟨2, _⟩ => exact h2
    | ⟨3, _⟩ => exact h3)
  exact block_taps x0 x1 xp g n q hx0 hx1 j h w

/-! ## The grid's blocks -/

/-- The index maps over the 16 × 4 grid: the two inputs' blocks move with the output's on the sample and channel
    axes, every other block index is zero, and point (n, q)'s block indices are n < 16 and q < 4. -/
theorem block_indices : ∀ t : Fin cfg1.N,
    win1_0.index t (0 : Fin 4) = win1_2.index t (0 : Fin 4)
    ∧ win1_0.index t (1 : Fin 4) = win1_2.index t (1 : Fin 4)
    ∧ win1_0.index t (2 : Fin 4) = 0 ∧ win1_0.index t (3 : Fin 4) = 0
    ∧ win1_1.index t (0 : Fin 3) = win1_2.index t (0 : Fin 4)
    ∧ win1_1.index t (1 : Fin 3) = win1_2.index t (1 : Fin 4)
    ∧ win1_1.index t (2 : Fin 3) = 0
    ∧ win1_2.index t (2 : Fin 4) = 0 ∧ win1_2.index t (3 : Fin 4) = 0
    ∧ win1_2.index t (0 : Fin 4) < 16 ∧ win1_2.index t (1 : Fin 4) < 4 :=
  (by decide +kernel : ∀ t : Fin grid1.N, _)

/-- Every sample and channel group is some point's. -/
theorem block_indices_onto : ∀ (n : Fin 16) (q : Fin 4), ∃ t : Fin cfg1.N,
    win1_2.index t (0 : Fin 4) = n.val ∧ win1_2.index t (1 : Fin 4) = q.val :=
  (by decide +kernel : ∀ (n : Fin 16) (q : Fin 4), ∃ t : Fin grid1.N, _)

/-- The padded input's block at point t is its sample and its 64 channels of the padded array, every row and column. -/
theorem padded_block (c : Dev nD) (t : Fin cfg1.N) (n : Fin 16) (q : Fin 4)
    (hn : win1_2.index t (0 : Fin 4) = n.val) (hq : win1_2.index t (1 : Fin 4) = q.val)
    (j : Fin 64) (h : Fin 128) (w : Fin 136) :
    (iblk1 V c 0 t : Vec Ideal S1x64x128x136 .f32) (ix4 (0 : Fin 1) j h w)
      = (V c main_v12 : Cert.Spec.SXP.Idx → EReal) (ix4 n (chan q j) h w) := by
  obtain ⟨e0, e1, e2, e3, -⟩ := block_indices t
  unfold iblk1
  rw [View.read_apply]
  show V c main_v12 _ = V c main_v12 _
  congr 1
  funext a
  apply Fin.ext
  match a with
  | ⟨0, _⟩ => show win1_0.index t (0 : Fin 4) * 1 + 1 * 0 = n.val; omega
  | ⟨1, _⟩ => show win1_0.index t (1 : Fin 4) * 64 + 1 * j.val = q.val * 64 + j.val; omega
  | ⟨2, _⟩ => show win1_0.index t (2 : Fin 4) * 128 + 1 * h.val = h.val; omega
  | ⟨3, _⟩ => show win1_0.index t (3 : Fin 4) * 136 + 1 * w.val = w.val; omega

/-- The filter's block at point t is its sample and its 64 channels of the filter array, all five entries. -/
theorem filter_block (c : Dev nD) (t : Fin cfg1.N) (n : Fin 16) (q : Fin 4)
    (hn : win1_2.index t (0 : Fin 4) = n.val) (hq : win1_2.index t (1 : Fin 4) = q.val)
    (j : Fin 64) (k : Fin 5) :
    (iblk1 V c 1 t : Vec Ideal S1x64x5 .f32) (ix3 (0 : Fin 1) j k)
      = (V c main_v11 : Cert.Spec.SF.Idx → EReal) (ix3 n (chan q j) k) := by
  obtain ⟨-, -, -, -, e4, e5, e6, -⟩ := block_indices t
  unfold iblk1
  rw [View.read_apply]
  show V c main_v11 _ = V c main_v11 _
  congr 1
  funext a
  apply Fin.ext
  match a with
  | ⟨0, _⟩ => show win1_1.index t (0 : Fin 3) * 1 + 1 * 0 = n.val; omega
  | ⟨1, _⟩ => show win1_1.index t (1 : Fin 3) * 64 + 1 * j.val = q.val * 64 + j.val; omega
  | ⟨2, _⟩ => show win1_1.index t (2 : Fin 3) * 5 + 1 * k.val = k.val; omega

/-- WHAT POINT t WRITES BACK is block t of the five taps of the padded array and the filter as the region finds them. -/
theorem written_back (c : Dev nD) (t : Fin cfg1.N) :
    (dat1 (F := Ideal) V c).flushed 2 t
      = ((cfg1.win 2).blk t).view.read (Elt Ideal) (Cert.Spec.conv (V c main_v12) (V c main_v11)) := by
  show (cfg1.win 2).cut (grid1.coords t) ((dat1 V c).after 2 t) = _
  rw [after1_2]
  obtain ⟨-, -, -, -, -, -, -, e7, e8, b0, b1⟩ := block_indices t
  funext y
  show out1_2 (iblk1 V c 0 t) (iblk1 V c 1 t) y
    = Cert.Spec.conv (V c main_v12) (V c main_v11) (((cfg1.win 2).blk t).view.emb y)
  refine block_taps_at (iblk1 V c 0 t) (iblk1 V c 1 t) (V c main_v12) (V c main_v11)
    ⟨win1_2.index t (0 : Fin 4), b0⟩ ⟨win1_2.index t (1 : Fin 4), b1⟩
    (padded_block V c t ⟨win1_2.index t (0 : Fin 4), b0⟩ ⟨win1_2.index t (1 : Fin 4), b1⟩ rfl rfl)
    (filter_block V c t ⟨win1_2.index t (0 : Fin 4), b0⟩ ⟨win1_2.index t (1 : Fin 4), b1⟩ rfl rfl)
    y (((cfg1.win 2).blk t).view.emb y) ?_ ?_ ?_ ?_
  · show win1_2.index t (0 : Fin 4) * 1 + 1 * (y 0).val = win1_2.index t (0 : Fin 4)
    have hy : (y 0).val < 1 := (y 0).isLt
    omega
  · show win1_2.index t (1 : Fin 4) * 64 + 1 * (y 1).val = win1_2.index t (1 : Fin 4) * 64 + (y 1).val
    omega
  · show win1_2.index t (2 : Fin 4) * 128 + 1 * (y 2).val = (y 2).val
    omega
  · show win1_2.index t (3 : Fin 4) * 128 + 1 * (y 3).val = (y 3).val
    omega

/-! ## The blocks tile the output array -/

/-- An index of the output array is in point t's block iff each coordinate is in the block's range on its axis. -/
theorem mem_block (t : Fin cfg1.N) (i : S16x256x128x128.Idx) :
    i ∈ ((cfg1.win 2).blk t).view.set
      ↔ ∀ a : Fin 4, win1_2.index t a * S1x64x128x128.size a ≤ (i a).val
          ∧ (i a).val < win1_2.index t a * S1x64x128x128.size a + S1x64x128x128.size a := by
  show i ∈ ((View.whole main_v13).slice (win1_2.rect t)).set ↔ _
  rw [View.set_slice_whole, Rect.mem_set_unit]
  exact Iff.rfl

/-- Every index (n, ch, h, w) of the output array lies in the block of the point of sample n and channel group ch / 64. -/
theorem covered (i : S16x256x128x128.Idx) :
    ∃ t : Fin cfg1.N, (cfg1.win 2).flush t = true ∧ i ∈ ((cfg1.win 2).blk t).view.set := by
  have hi0 : (i 0).val < 16 := (i 0).isLt
  have hi1 : (i 1).val < 256 := (i 1).isLt
  have hi2 : (i 2).val < 128 := (i 2).isLt
  have hi3 : (i 3).val < 128 := (i 3).isLt
  obtain ⟨t, q0, q1⟩ := block_indices_onto ⟨(i 0).val, hi0⟩ ⟨(i 1).val / 64, by omega⟩
  obtain ⟨-, -, -, -, -, -, -, e7, e8, -⟩ := block_indices t
  have q0' : win1_2.index t (0 : Fin 4) = (i 0).val := q0
  have q1' : win1_2.index t (1 : Fin 4) = (i 1).val / 64 := q1
  refine ⟨t, flush1_2 t, ?_⟩
  rw [mem_block]
  intro a
  match a with
  | ⟨0, _⟩ =>
    show win1_2.index t (0 : Fin 4) * 1 ≤ (i 0).val ∧ (i 0).val < win1_2.index t (0 : Fin 4) * 1 + 1
    omega
  | ⟨1, _⟩ =>
    show win1_2.index t (1 : Fin 4) * 64 ≤ (i 1).val ∧ (i 1).val < win1_2.index t (1 : Fin 4) * 64 + 64
    omega
  | ⟨2, _⟩ =>
    show win1_2.index t (2 : Fin 4) * 128 ≤ (i 2).val ∧ (i 2).val < win1_2.index t (2 : Fin 4) * 128 + 128
    omega
  | ⟨3, _⟩ =>
    show win1_2.index t (3 : Fin 4) * 128 ≤ (i 3).val ∧ (i 3).val < win1_2.index t (3 : Fin 4) * 128 + 128
    omega

/-! ## The output array -/

/-- The output array after the region: the five taps of the padded array and the filter, index by index. -/
theorem value (c : Dev nD) :
    (dat1 (F := Ideal) V c).arrAt 2 cfg1.N = Cert.Spec.conv (V c main_v12) (V c main_v11) :=
  (dat1 (F := Ideal) V c).arrAt_eq_of_cover 2 (Cert.Spec.conv (V c main_v12) (V c main_v11))
    (fun t _ => written_back V c t) covered

end Cert.KernelIdeal.Region1

end
-- ==== Proof.RefValue.lean ====
/-
  The reference's run: a straight line of host operations (the integer remainder, the selection and the reflect padding
  are functions called in line). Every weakly fair execution terminates; the result array ends at the five taps of the
  padded input against the gathered gate of the channel means, the arguments as launched.
-/
import proofs.«112700_j52905407152335_1_alg».proof.Proof.Gen.ReferenceIdeal
import proofs.«112700_j52905407152335_1_alg».proof.Proof.Spec
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The ninety operations of the program in order, a called function's operations listed where it is called, over the
    call's own buffers: the fifteen that make the gate from the channel means; the channel numbers 0 … 255 and the
    constant two; the remainder's twenty-one (the selection of its divisor among them); the eight that wrap a negative
    remainder by two and lay the result out as a column, and the gather by it; the zero the padding is handed and does
    not read, and the padding's eight (its two reversals among them); the thirty-four of the five taps (six each: the
    filter column sliced, reshaped and spread twice, the padded input sliced, their product; and the four sums). -/
abbrev ops : List (HloOp τ sig (Elt F)) :=
  [ nullary main_cst (constant S_ .f32 0x00000000#32),
    binary main_arg0 main_cst main_v0 ((fun x v => Host.reduceAdd x v reducesTo_S16x256x128x128_S16x256_d2_3 h_S_) : (⟨S16x256x128x128, .f32⟩ : BufTy).Contents (Elt F) → (⟨S_, .f32⟩ : BufTy).Contents (Elt F) → (⟨S16x256, .f32⟩ : BufTy).Contents (Elt F)),
    nullary main_cst_0 (constant S_ .f32 0x46800000#32),
    unary main_cst_0 main_v1 (broadcastInDim S16x256 ![] bcast_S_S16x256 : (⟨S_, .f32⟩ : BufTy).Contents (Elt F) → (⟨S16x256, .f32⟩ : BufTy).Contents (Elt F)),
    binary main_v0 main_v1 main_v2 (Host.divf : (⟨S16x256, .f32⟩ : BufTy).Contents (Elt F) → (⟨S16x256, .f32⟩ : BufTy).Contents (Elt F) → (⟨S16x256, .f32⟩ : BufTy).Contents (Elt F)),
    binary main_v2 main_arg1 main_v3 ((fun l r => Host.dotGeneral dot_S16x256_S10x256_S16x10_1_1_0_0_n_n none l r) : (⟨S16x256, .f32⟩ : BufTy).Contents (Elt F) → (⟨S10x256, .f32⟩ : BufTy).Contents (Elt F) → (⟨S16x10, .f32⟩ : BufTy).Contents (Elt F)),
    reshape main_v3 main_v4 rfl shapeCasts_S16x10_S16x2x5,
    unary main_v4 main_v5 (Host.negf : (⟨S16x2x5, .f32⟩ : BufTy).Contents (Elt F) → (⟨S16x2x5, .f32⟩ : BufTy).Contents (Elt F)),
    unary main_v5 main_v6 (Host.exp : (⟨S16x2x5, .f32⟩ : BufTy).Contents (Elt F) → (⟨S16x2x5, .f32⟩ : BufTy).Contents (Elt F)),
    nullary main_cst_1 (constant S_ .f32 0x3F800000#32),
    unary main_cst_1 main_v7 (broadcastInDim S16x2x5 ![] bcast_S_S16x2x5 : (⟨S_, .f32⟩ : BufTy).Contents (Elt F) → (⟨S16x2x5, .f32⟩ : BufTy).Contents (Elt F)),
    binary main_v7 main_v6 main_v8 (addf : (⟨S16x2x5, .f32⟩ : BufTy).Contents (Elt F) → (⟨S16x2x5, .f32⟩ : BufTy).Contents (Elt F) → (⟨S16x2x5, .f32⟩ : BufTy).Contents (Elt F)),
    nullary main_cst_2 (constant S_ .f32 0x3F800000#32),
    unary main_cst_2 main_v9 (broadcastInDim S16x2x5 ![] bcast_S_S16x2x5 : (⟨S_, .f32⟩ : BufTy).Contents (Elt F) → (⟨S16x2x5, .f32⟩ : BufTy).Contents (Elt F)),
    binary main_v9 main_v8 main_v10 (Host.divf : (⟨S16x2x5, .f32⟩ : BufTy).Contents (Elt F) → (⟨S16x2x5, .f32⟩ : BufTy).Contents (Elt F) → (⟨S16x2x5, .f32⟩ : BufTy).Contents (Elt F)),
    nullary main_v11 (iotaInDim S256 32 0),
    nullary main_c (constantI S_ 32 2#32),
    TRef.unary (.of main_c : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S256 ![] bcast_S_S256),
    TRef.binary (.of main_v11 : TRef sig ⟨S256, .i32⟩) main_call0.v3 main_call0.v4 Host.remsi,
    TRef.nullary main_call0.c_1 (constantI S_ 32 0#32),
    TRef.unary main_call0.c_1 main_call0.v5 (broadcastInDim S256 ![] bcast_S_S256),
    TRef.binary main_call0.v4 main_call0.v5 main_call0.v6 (cmpi .ne),
    TRef.nullary main_call0.c_2 (constantI S_ 32 0#32),
    TRef.unary main_call0.c_2 main_call0.v7 (broadcastInDim S256 ![] bcast_S_S256),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S256 ![] bcast_S_S256),
    TRef.binary main_call0.v8 main_call0.v10 main_call0.v11 (cmpi .ne),
    TRef.binary main_call0.v11 main_call0.v6 main_call0.v12 andi,
    TRef.unary main_call0.call0.v0 main_call0.v13 (broadcastInDim S256 ![] bcast_S_S256),
    TRef.binary main_call0.v4 main_call0.v13 main_call0.v14 addi,
    TRef.ternary main_call0.v12 main_call0.v14 main_call0.v4 main_call0.v15 select,
    nullary main_c_3 (constantI S_ 32 0#32),
    unary main_c_3 main_v13 (broadcastInDim S256 ![] bcast_S_S256 : (⟨S_, .i32⟩ : BufTy).Contents (Elt F) → (⟨S256, .i32⟩ : BufTy).Contents (Elt F)),
    binary main_v12 main_v13 main_v14 (cmpi .slt : (⟨S256, .i32⟩ : BufTy).Contents (Elt F) → (⟨S256, .i32⟩ : BufTy).Contents (Elt F) → (⟨S256, .i1⟩ : BufTy).Contents (Elt F)),
    nullary main_c_4 (constantI S_ 32 2#32),
    unary main_c_4 main_v15 (broadcastInDim S256 ![] bcast_S_S256 : (⟨S_, .i32⟩ : BufTy).Contents (Elt F) → (⟨S256, .i32⟩ : BufTy).Contents (Elt F)),
    binary main_v12 main_v15 main_v16 (addi : (⟨S256, .i32⟩ : BufTy).Contents (Elt F) → (⟨S256, .i32⟩ : BufTy).Contents (Elt F) → (⟨S256, .i32⟩ : BufTy).Contents (Elt F)),
    ternary main_v14 main_v16 main_v12 main_v17 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v17 main_v18 (broadcastInDim S256x1 ![0] bcast_S256_S256x1_0 : (⟨S256, .i32⟩ : BufTy).Contents (Elt F) → (⟨S256x1, .i32⟩ : BufTy).Contents (Elt F)),
    binary main_v10 main_v18 main_v19 ((fun x i => Host.gather gather_S16x2x5_S256x1_S16x256x5_02_1_n_n_1_1_1615 x i) : (⟨S16x2x5, .f32⟩ : BufTy).Contents (Elt F) → (⟨S256x1, .i32⟩ : BufTy).Contents (Elt F) → (⟨S16x256x5, .f32⟩ : BufTy).Contents (Elt F)),
    nullary main_c_5 (constantI S_ 32 0#32),
    TRef.unary (.of main_arg0 : TRef sig ⟨S16x256x128x128, .f32⟩) main_call1.v0 (extractStridedSlice S16x256x128x1 ![0, 0, 0, 0] · slices_S16x256x128x128_S16x256x128x1_0_0_0_0),
    TRef.unary (.of main_arg0 : TRef sig ⟨S16x256x128x128, .f32⟩) main_call1.v1 (extractStridedSlice S16x256x128x4 ![0, 0, 0, 1] · slices_S16x256x128x128_S16x256x128x4_0_0_0_1),
    TRef.unary main_call1.v1 main_call1.call0.v0 (Host.reverse [3]),
    TRef.binary main_call1.call0.v0 (.of main_arg0 : TRef sig ⟨S16x256x128x128, .f32⟩) main_call1.v3 (fun a b => concatenate S16x256x128x132 3 [⟨S16x256x128x4, a⟩, ⟨S16x256x128x128, b⟩] concatenates_S16x256x128x4_S16x256x128x128_S16x256x128x132_d3),
    TRef.unary main_call1.v3 main_call1.v4 (extractStridedSlice S16x256x128x1 ![0, 0, 0, 131] · slices_S16x256x128x132_S16x256x128x1_0_0_0_131),
    TRef.unary main_call1.v3 main_call1.v5 (extractStridedSlice S16x256x128x4 ![0, 0, 0, 127] · slices_S16x256x128x132_S16x256x128x4_0_0_0_127),
    TRef.unary main_call1.v5 main_call1.call1.v0 (Host.reverse [3]),
    TRef.binary main_call1.v3 main_call1.call1.v0 main_call1.v7 (fun a b => concatenate S16x256x128x136 3 [⟨S16x256x128x132, a⟩, ⟨S16x256x128x4, b⟩] concatenates_S16x256x128x132_S16x256x128x4_S16x256x128x136_d3),
    unary main_v19 main_v21 ((extractStridedSlice S16x256x1 ![0, 0, 0] · slices_S16x256x5_S16x256x1_0_0_0) : (⟨S16x256x5, .f32⟩ : BufTy).Contents (Elt F) → (⟨S16x256x1, .f32⟩ : BufTy).Contents (Elt F)),
    reshape main_v21 main_v22 rfl shapeCasts_S16x256x1_S16x256,
    unary main_v22 main_v23 (broadcastInDim S16x256x1x1 ![0, 1] bcast_S16x256_S16x256x1x1_0_1 : (⟨S16x256, .f32⟩ : BufTy).Contents (Elt F) → (⟨S16x256x1x1, .f32⟩ : BufTy).Contents (Elt F)),
    unary main_v20 main_v24 ((extractStridedSlice S16x256x128x128 ![0, 0, 0, 0] · slices_S16x256x128x136_S16x256x128x128_0_0_0_0) : (⟨S16x256x128x136, .f32⟩ : BufTy).Contents (Elt F) → (⟨S16x256x128x128, .f32⟩ : BufTy).Contents (Elt F)),
    unary main_v23 main_v25 (broadcastInDim S16x256x128x128 ![0, 1, 2, 3] bcast_S16x256x1x1_S16x256x128x128_0_1_2_3 : (⟨S16x256x1x1, .f32⟩ : BufTy).Contents (Elt F) → (⟨S16x256x128x128, .f32⟩ : BufTy).Contents (Elt F)),
    binary main_v25 main_v24 main_v26 (mulf : (⟨S16x256x128x128, .f32⟩ : BufTy).Contents (Elt F) → (⟨S16x256x128x128, .f32⟩ : BufTy).Contents (Elt F) → (⟨S16x256x128x128, .f32⟩ : BufTy).Contents (Elt F)),
    unary main_v19 main_v27 ((extractStridedSlice S16x256x1 ![0, 0, 1] · slices_S16x256x5_S16x256x1_0_0_1) : (⟨S16x256x5, .f32⟩ : BufTy).Contents (Elt F) → (⟨S16x256x1, .f32⟩ : BufTy).Contents (Elt F)),
    reshape main_v27 main_v28 rfl shapeCasts_S16x256x1_S16x256,
    unary main_v28 main_v29 (broadcastInDim S16x256x1x1 ![0, 1] bcast_S16x256_S16x256x1x1_0_1 : (⟨S16x256, .f32⟩ : BufTy).Contents (Elt F) → (⟨S16x256x1x1, .f32⟩ : BufTy).Contents (Elt F)),
    unary main_v20 main_v30 ((extractStridedSlice S16x256x128x128 ![0, 0, 0, 2] · slices_S16x256x128x136_S16x256x128x128_0_0_0_2) : (⟨S16x256x128x136, .f32⟩ : BufTy).Contents (Elt F) → (⟨S16x256x128x128, .f32⟩ : BufTy).Contents (Elt F)),
    unary main_v29 main_v31 (broadcastInDim S16x256x128x128 ![0, 1, 2, 3] bcast_S16x256x1x1_S16x256x128x128_0_1_2_3 : (⟨S16x256x1x1, .f32⟩ : BufTy).Contents (Elt F) → (⟨S16x256x128x128, .f32⟩ : BufTy).Contents (Elt F)),
    binary main_v31 main_v30 main_v32 (mulf : (⟨S16x256x128x128, .f32⟩ : BufTy).Contents (Elt F) → (⟨S16x256x128x128, .f32⟩ : BufTy).Contents (Elt F) → (⟨S16x256x128x128, .f32⟩ : BufTy).Contents (Elt F)),
    binary main_v26 main_v32 main_v33 (addf : (⟨S16x256x128x128, .f32⟩ : BufTy).Contents (Elt F) → (⟨S16x256x128x128, .f32⟩ : BufTy).Contents (Elt F) → (⟨S16x256x128x128, .f32⟩ : BufTy).Contents (Elt F)),
    unary main_v19 main_v34 ((extractStridedSlice S16x256x1 ![0, 0, 2] · slices_S16x256x5_S16x256x1_0_0_2) : (⟨S16x256x5, .f32⟩ : BufTy).Contents (Elt F) → (⟨S16x256x1, .f32⟩ : BufTy).Contents (Elt F)),
    reshape main_v34 main_v35 rfl shapeCasts_S16x256x1_S16x256,
    unary main_v35 main_v36 (broadcastInDim S16x256x1x1 ![0, 1] bcast_S16x256_S16x256x1x1_0_1 : (⟨S16x256, .f32⟩ : BufTy).Contents (Elt F) → (⟨S16x256x1x1, .f32⟩ : BufTy).Contents (Elt F)),
    unary main_v20 main_v37 ((extractStridedSlice S16x256x128x128 ![0, 0, 0, 4] · slices_S16x256x128x136_S16x256x128x128_0_0_0_4) : (⟨S16x256x128x136, .f32⟩ : BufTy).Contents (Elt F) → (⟨S16x256x128x128, .f32⟩ : BufTy).Contents (Elt F)),
    unary main_v36 main_v38 (broadcastInDim S16x256x128x128 ![0, 1, 2, 3] bcast_S16x256x1x1_S16x256x128x128_0_1_2_3 : (⟨S16x256x1x1, .f32⟩ : BufTy).Contents (Elt F) → (⟨S16x256x128x128, .f32⟩ : BufTy).Contents (Elt F)),
    binary main_v38 main_v37 main_v39 (mulf : (⟨S16x256x128x128, .f32⟩ : BufTy).Contents (Elt F) → (⟨S16x256x128x128, .f32⟩ : BufTy).Contents (Elt F) → (⟨S16x256x128x128, .f32⟩ : BufTy).Contents (Elt F)),
    binary main_v33 main_v39 main_v40 (addf : (⟨S16x256x128x128, .f32⟩ : BufTy).Contents (Elt F) → (⟨S16x256x128x128, .f32⟩ : BufTy).Contents (Elt F) → (⟨S16x256x128x128, .f32⟩ : BufTy).Contents (Elt F)),
    unary main_v19 main_v41 ((extractStridedSlice S16x256x1 ![0, 0, 3] · slices_S16x256x5_S16x256x1_0_0_3) : (⟨S16x256x5, .f32⟩ : BufTy).Contents (Elt F) → (⟨S16x256x1, .f32⟩ : BufTy).Contents (Elt F)),
    reshape main_v41 main_v42 rfl shapeCasts_S16x256x1_S16x256,
    unary main_v42 main_v43 (broadcastInDim S16x256x1x1 ![0, 1] bcast_S16x256_S16x256x1x1_0_1 : (⟨S16x256, .f32⟩ : BufTy).Contents (Elt F) → (⟨S16x256x1x1, .f32⟩ : BufTy).Contents (Elt F)),
    unary main_v20 main_v44 ((extractStridedSlice S16x256x128x128 ![0, 0, 0, 6] · slices_S16x256x128x136_S16x256x128x128_0_0_0_6) : (⟨S16x256x128x136, .f32⟩ : BufTy).Contents (Elt F) → (⟨S16x256x128x128, .f32⟩ : BufTy).Contents (Elt F)),
    unary main_v43 main_v45 (broadcastInDim S16x256x128x128 ![0, 1, 2, 3] bcast_S16x256x1x1_S16x256x128x128_0_1_2_3 : (⟨S16x256x1x1, .f32⟩ : BufTy).Contents (Elt F) → (⟨S16x256x128x128, .f32⟩ : BufTy).Contents (Elt F)),
    binary main_v45 main_v44 main_v46 (mulf : (⟨S16x256x128x128, .f32⟩ : BufTy).Contents (Elt F) → (⟨S16x256x128x128, .f32⟩ : BufTy).Contents (Elt F) → (⟨S16x256x128x128, .f32⟩ : BufTy).Contents (Elt F)),
    binary main_v40 main_v46 main_v47 (addf : (⟨S16x256x128x128, .f32⟩ : BufTy).Contents (Elt F) → (⟨S16x256x128x128, .f32⟩ : BufTy).Contents (Elt F) → (⟨S16x256x128x128, .f32⟩ : BufTy).Contents (Elt F)),
    unary main_v19 main_v48 ((extractStridedSlice S16x256x1 ![0, 0, 4] · slices_S16x256x5_S16x256x1_0_0_4) : (⟨S16x256x5, .f32⟩ : BufTy).Contents (Elt F) → (⟨S16x256x1, .f32⟩ : BufTy).Contents (Elt F)),
    reshape main_v48 main_v49 rfl shapeCasts_S16x256x1_S16x256,
    unary main_v49 main_v50 (broadcastInDim S16x256x1x1 ![0, 1] bcast_S16x256_S16x256x1x1_0_1 : (⟨S16x256, .f32⟩ : BufTy).Contents (Elt F) → (⟨S16x256x1x1, .f32⟩ : BufTy).Contents (Elt F)),
    unary main_v20 main_v51 ((extractStridedSlice S16x256x128x128 ![0, 0, 0, 8] · slices_S16x256x128x136_S16x256x128x128_0_0_0_8) : (⟨S16x256x128x136, .f32⟩ : BufTy).Contents (Elt F) → (⟨S16x256x128x128, .f32⟩ : BufTy).Contents (Elt F)),
    unary main_v50 main_v52 (broadcastInDim S16x256x128x128 ![0, 1, 2, 3] bcast_S16x256x1x1_S16x256x128x128_0_1_2_3 : (⟨S16x256x1x1, .f32⟩ : BufTy).Contents (Elt F) → (⟨S16x256x128x128, .f32⟩ : BufTy).Contents (Elt F)),
    binary main_v52 main_v51 main_v53 (mulf : (⟨S16x256x128x128, .f32⟩ : BufTy).Contents (Elt F) → (⟨S16x256x128x128, .f32⟩ : BufTy).Contents (Elt F) → (⟨S16x256x128x128, .f32⟩ : BufTy).Contents (Elt F)),
    binary main_v47 main_v53 main_v54 (addf : (⟨S16x256x128x128, .f32⟩ : BufTy).Contents (Elt F) → (⟨S16x256x128x128, .f32⟩ : BufTy).Contents (Elt F) → (⟨S16x256x128x128, .f32⟩ : BufTy).Contents (Elt F)) ]

set_option maxRecDepth 8192 in
set_option maxHeartbeats 8000000 in
/-- The program is that straight line: the called functions opened where they are called, their buffer records read
    at their fields, and sequencing reassociated. -/
theorem main_eq (c : Dev nD) : main (F := F) c = seq ops := by
  simp only [main, main_part0, main_part1, fn_remainder.body, fn_where.body, fn_pad.body, fn_flip.body, seq, bind_assoc, pure_bind]

/-- No buffer and no semaphore of the signature is scoped: every buffer is a tensor value's. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the signature only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., binary_bufs_sub ..,
    reshape_bufs_sub .., unary_bufs_sub .., unary_bufs_sub .., nullary_bufs_sub .., unary_bufs_sub .., binary_bufs_sub ..,
    nullary_bufs_sub .., unary_bufs_sub .., binary_bufs_sub .., nullary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., unary_bufs_sub .., binary_bufs_sub .., unary_bufs_sub .., unary_bufs_sub ..,
    unary_bufs_sub .., binary_bufs_sub .., unary_bufs_sub .., reshape_bufs_sub .., unary_bufs_sub .., unary_bufs_sub ..,
    unary_bufs_sub .., binary_bufs_sub .., unary_bufs_sub .., reshape_bufs_sub .., unary_bufs_sub .., unary_bufs_sub ..,
    unary_bufs_sub .., binary_bufs_sub .., binary_bufs_sub .., unary_bufs_sub .., reshape_bufs_sub .., unary_bufs_sub ..,
    unary_bufs_sub .., unary_bufs_sub .., binary_bufs_sub .., binary_bufs_sub .., unary_bufs_sub .., reshape_bufs_sub ..,
    unary_bufs_sub .., unary_bufs_sub .., unary_bufs_sub .., binary_bufs_sub .., binary_bufs_sub .., unary_bufs_sub ..,
    reshape_bufs_sub .., unary_bufs_sub .., unary_bufs_sub .., unary_bufs_sub .., binary_bufs_sub .., binary_bufs_sub ..⟩

attribute [local irreducible] Host.reduceAdd Host.gather concatenate Host.reverse Host.remsi in
set_option maxRecDepth 8192 in
set_option maxHeartbeats 4000000 in
/-- What the result buffer holds after the operations, from any contents: each operation's result at its own buffer is
    its function of its operands' contents and elsewhere what was there, and a typed reference's transport is the
    identity at a literal reference; composed along the line this is the five taps of the padded first argument
    against the gathered gate of its channel means and the second argument, term for term: the shapes are the same
    literals, the side conditions are propositions, the contraction's and the gather's records have the same fields. The
    sums, the gather, the concatenations, the reversals and the integer remainder stay folded: the two sides apply
    them to equal operands. -/
theorem out_eq (V : Valuation τ sig (Elt F)) :
    after ops V (main_v54 : DevRef τ sig)
      = Cert.Spec.convR (Cert.Spec.padOf (V (main_arg0 : DevRef τ sig)))
          (Cert.Spec.gath (Cert.Spec.gate (Cert.Spec.avgR (V (main_arg0 : DevRef τ sig))) (V (main_arg1 : DevRef τ sig)))) := by
  after_results_simp
  simp only [TRef.ofBuf, TRef.toBuf, cast_eq]
  rfl

/-- No operation writes an argument's buffer. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54)
        = Cert.Spec.convR (Cert.Spec.padOf (m ((c.tc : Thread nD τ).loc main_arg0)))
            (Cert.Spec.gath (Cert.Spec.gate (Cert.Spec.avgR (m ((c.tc : Thread nD τ).loc main_arg0))) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v54).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefValue

end
-- ==== Proof.lean ====
/-
  The kernel and its reference compute one function over the extended reals, for finite inputs.

  Both programs average every [128, 128] plane of x, contract the means with the weight, pass the result through the
  logistic function, give every channel the gate row of its parity, reflect-pad x by four columns, and add five products
  of a gate entry with the padded input shifted by 0, 2, 4, 6, 8 columns, first to last. They differ in three places, and
  each is one equation between arrays:
    * the mean: the kernel adds, tile by tile, eight partial sums each scaled by 2⁻¹⁴, the reference divides the whole sum
      by 16384 — equal for real entries (the one place the finiteness of x is used);
    * the gate per channel: a reshape–broadcast–reshape chain against a gather at indices c mod 2;
    * the five taps: one pass over blocks of 64 channels against slices, broadcasts, products and sums of whole arrays.
  The gate chain and the padding are the same operations in both programs and are carried as functions, never opened.
-/
import proofs.«112700_j52905407152335_1_alg».proof.Defs
import proofs.«112700_j52905407152335_1_alg».proof.Proof.Gen.Kernel
import proofs.«112700_j52905407152335_1_alg».proof.Proof.Gen.Kernel.Frame
import proofs.«112700_j52905407152335_1_alg».proof.Proof.Gen.KernelIdeal
import proofs.«112700_j52905407152335_1_alg».proof.Proof.Gen.KernelIdeal.Frame
import proofs.«112700_j52905407152335_1_alg».proof.Proof.Gen.ReferenceIdeal
import proofs.«112700_j52905407152335_1_alg».proof.Proof.Gen.Pre_finite_inputs
import proofs.«112700_j52905407152335_1_alg».proof.Proof.Spec
import proofs.«112700_j52905407152335_1_alg».proof.Proof.TileGather
import proofs.«112700_j52905407152335_1_alg».proof.Proof.ConvHost
import proofs.«112700_j52905407152335_1_alg».proof.Proof.Finite
import proofs.«112700_j52905407152335_1_alg».proof.Proof.KernelRun
import proofs.«112700_j52905407152335_1_alg».proof.Proof.KernelHost
import proofs.«112700_j52905407152335_1_alg».proof.Proof.Region0
import proofs.«112700_j52905407152335_1_alg».proof.Proof.Region1
import proofs.«112700_j52905407152335_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run (F := Ideal) m ρ)

section
open Cert.KernelIdeal Cert.KernelIdeal.Gen

/-- The kernel's result: the five taps of the padded input against the tiled gate of the channel means. -/
def result (m : (ℓ : Loc nD τ sig) → Buf (Elt Ideal) ℓ) (c : Dev nD) : Buf (Elt Ideal) ((c.tc : Thread nD τ).loc main_v13) :=
  Cert.Spec.conv (Cert.Spec.padOf (m ((c.tc : Thread nD τ).loc main_arg0)))
    (Cert.Spec.tile (Cert.Spec.gate (Cert.Spec.avgR (m ((c.tc : Thread nD τ).loc main_arg0))) (m ((c.tc : Thread nD τ).loc main_arg1))))

/-- What the run leaves in the result array is that: the second region's value over what the host stretch hands it, the
    first region's value (the means, for real entries) inside the gate. -/
theorem kernel_value (m : (ℓ : Loc nD τ sig) → Buf (Elt Ideal) ℓ) (ρ : Dev nD → PrngReg)
    (hpre : Cert.Pre_KernelIdeal m) (c : Dev nD) :
    W4 m ρ c (Proc.devRef .tc main_v13) = result m c := by
  rw [Cert.KernelIdeal.HostValue.out_eq, Cert.KernelIdeal.Region1.value, Cert.KernelIdeal.HostValue.V3_v12,
    Cert.KernelIdeal.HostValue.V3_v11,
    Cert.KernelIdeal.Region0.value (V0 m ρ) c (by rw [Cert.KernelIdeal.HostValue.V0_arg0]; exact Cert.Finite.allReal_arg0 m hpre c),
    Cert.KernelIdeal.HostValue.V0_arg0]
  rfl

end

theorem algebraic : Cert.algebraic_KernelIdeal_ReferenceIdeal := by
  intro m ρ m' ρ' hpre hagree
  refine ⟨fun c => result m c, ?_, ?_⟩
  · exact (θ_run Cert.KernelIdeal.defs _ _).mono (fun _ h c => ⟨(h c).1.trans (kernel_value m ρ hpre c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.RefValue.run (F := Ideal) m' ρ')
    rw [(hagree c).1, (hagree c).2, Cert.Spec.convR_eq_conv, ← Cert.Spec.tile_eq_gath]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
